-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x16x256 : Shape := ⟨4, ![8, 16, 16, 256]⟩
abbrev S8x16x4096x256 : Shape := ⟨4, ![8, 16, 4096, 256]⟩
abbrev S8x1x16x4096 : Shape := ⟨4, ![8, 1, 16, 4096]⟩
abbrev S_ : Shape := ⟨0, ![]⟩

class Facts : Prop where
  bcast_S_S8x16x16x256 : S_.BroadcastsInDim S8x16x16x256 (![] : Fin 0 → Fin S8x16x16x256.rank)
  reducesTo_S8x16x16x256_S_d0_1_2_3 : S8x16x16x256.ReducesTo [0, 1, 2, 3] S_
  h_S_ : 0 < S_.numel
  bcast_S_S8x16x4096x256 : S_.BroadcastsInDim S8x16x4096x256 (![] : Fin 0 → Fin S8x16x4096x256.rank)
  reducesTo_S8x16x4096x256_S_d0_1_2_3 : S8x16x4096x256.ReducesTo [0, 1, 2, 3] S_

variable [Facts]

def fn_part1 {F : FTy → Type} [FloatOps F] (main_arg4 : FVec F S8x16x16x256 .f32) (main_v13 : IVec S_ 1) (main_v16 : IVec S8x16x16x256 1) : IVec S_ 1 :=
  let main_c_5 : IVec S_ 1 := constantI S_ 1 1#1
  let main_v17 : IVec S_ 1 := (fun x v => Host.reduce IntOp.andi x v reducesTo_S8x16x16x256_S_d0_1_2_3 h_S_) main_v16 main_c_5
  let main_v18 : IVec S_ 1 := andi main_v13 main_v17
  let main_v19 : FVec F S8x16x16x256 .f32 := Host.absf main_arg4
  let main_cst_6 : FVec F S_ .f32 := constant S_ .f32 0x7F800000#32
  let main_v20 : FVec F S8x16x16x256 .f32 := broadcastInDim S8x16x16x256 ![] bcast_S_S8x16x16x256 main_cst_6
  let main_v21 : IVec S8x16x16x256 1 := cmpf .olt main_v19 main_v20
  let main_c_7 : IVec S_ 1 := constantI S_ 1 1#1
  let main_v22 : IVec S_ 1 := (fun x v => Host.reduce IntOp.andi x v reducesTo_S8x16x16x256_S_d0_1_2_3 h_S_) main_v21 main_c_7
  let main_v23 : IVec S_ 1 := andi main_v18 main_v22
  main_v23

def fn {F : FTy → Type} [FloatOps F] (main_arg0 : FVec F S8x16x16x256 .f32) (main_arg1 : FVec F S8x16x4096x256 .f32) (main_arg2 : FVec F S8x16x4096x256 .f32) (main_arg3 : FVec F S8x16x16x256 .f32) (main_arg4 : FVec F S8x16x16x256 .f32) (main_arg5 : IVec S8x1x16x4096 1) : IVec S_ 1 :=
  let main_v0 : FVec F S8x16x16x256 .f32 := Host.absf main_arg0
  let main_cst : FVec F S_ .f32 := constant S_ .f32 0x7F800000#32
  let main_v1 : FVec F S8x16x16x256 .f32 := broadcastInDim S8x16x16x256 ![] bcast_S_S8x16x16x256 main_cst
  let main_v2 : IVec S8x16x16x256 1 := cmpf .olt main_v0 main_v1
  let main_c : IVec S_ 1 := constantI S_ 1 1#1
  let main_v3 : IVec S_ 1 := (fun x v => Host.reduce IntOp.andi x v reducesTo_S8x16x16x256_S_d0_1_2_3 h_S_) main_v2 main_c
  let main_v4 : FVec F S8x16x4096x256 .f32 := Host.absf main_arg1
  let main_cst_0 : FVec F S_ .f32 := constant S_ .f32 0x7F800000#32
  let main_v5 : FVec F S8x16x4096x256 .f32 := broadcastInDim S8x16x4096x256 ![] bcast_S_S8x16x4096x256 main_cst_0
  let main_v6 : IVec S8x16x4096x256 1 := cmpf .olt main_v4 main_v5
  let main_c_1 : IVec S_ 1 := constantI S_ 1 1#1
  let main_v7 : IVec S_ 1 := (fun x v => Host.reduce IntOp.andi x v reducesTo_S8x16x4096x256_S_d0_1_2_3 h_S_) main_v6 main_c_1
  let main_v8 : IVec S_ 1 := andi main_v3 main_v7
  let main_v9 : FVec F S8x16x4096x256 .f32 := Host.absf main_arg2
  let main_cst_2 : FVec F S_ .f32 := constant S_ .f32 0x7F800000#32
  let main_v10 : FVec F S8x16x4096x256 .f32 := broadcastInDim S8x16x4096x256 ![] bcast_S_S8x16x4096x256 main_cst_2
  let main_v11 : IVec S8x16x4096x256 1 := cmpf .olt main_v9 main_v10
  let main_c_3 : IVec S_ 1 := constantI S_ 1 1#1
  let main_v12 : IVec S_ 1 := (fun x v => Host.reduce IntOp.andi x v reducesTo_S8x16x4096x256_S_d0_1_2_3 h_S_) main_v11 main_c_3
  let main_v13 : IVec S_ 1 := andi main_v8 main_v12
  let main_v14 : FVec F S8x16x16x256 .f32 := Host.absf main_arg3
  let main_cst_4 : FVec F S_ .f32 := constant S_ .f32 0x7F800000#32
  let main_v15 : FVec F S8x16x16x256 .f32 := broadcastInDim S8x16x16x256 ![] bcast_S_S8x16x16x256 main_cst_4
  let main_v16 : IVec S8x16x16x256 1 := cmpf .olt main_v14 main_v15
  fn_part1 (F := F) main_arg4 main_v13 main_v16
-- ==== Kernel.lean ====
abbrev S8x16x16x256 : Shape := ⟨4, ![8, 16, 16, 256]⟩
abbrev S8x16x4096x256 : Shape := ⟨4, ![8, 16, 4096, 256]⟩
abbrev S8x1x16x4096 : Shape := ⟨4, ![8, 1, 16, 4096]⟩
abbrev S1x2x16x256 : Shape := ⟨4, ![1, 2, 16, 256]⟩
abbrev S1x2x4096x256 : Shape := ⟨4, ![1, 2, 4096, 256]⟩
abbrev S1x1x16x4096 : Shape := ⟨4, ![1, 1, 16, 4096]⟩
abbrev S16x4096 : Shape := ⟨2, ![16, 4096]⟩
abbrev S1x1x16x256 : Shape := ⟨4, ![1, 1, 16, 256]⟩
abbrev S16x256 : Shape := ⟨2, ![16, 256]⟩
abbrev S1x1x4096x256 : Shape := ⟨4, ![1, 1, 4096, 256]⟩
abbrev S4096x256 : Shape := ⟨2, ![4096, 256]⟩
abbrev S16x16 : Shape := ⟨2, ![16, 16]⟩
abbrev S16 : Shape := ⟨1, ![16]⟩
abbrev S16x1 : Shape := ⟨2, ![16, 1]⟩

abbrev nBuf : Space → Nat
  | .hbm => 8
  | .vmem => 14
  | .smem => 0
  | _ => 0

abbrev bufTy : (tb : Table) → Fin (tcTables nBuf tb) → BufTy
  | .hbm, ⟨0, _⟩ => ⟨S8x16x16x256, .f32⟩
  | .hbm, ⟨1, _⟩ => ⟨S8x16x4096x256, .f32⟩
  | .hbm, ⟨2, _⟩ => ⟨S8x16x4096x256, .f32⟩
  | .hbm, ⟨3, _⟩ => ⟨S8x16x16x256, .f32⟩
  | .hbm, ⟨4, _⟩ => ⟨S8x16x16x256, .f32⟩
  | .hbm, ⟨5, _⟩ => ⟨S8x1x16x4096, .i1⟩
  | .hbm, ⟨6, _⟩ => ⟨S8x1x16x4096, .i32⟩
  | .hbm, ⟨7, _⟩ => ⟨S8x16x16x256, .f32⟩
  | .local _ .vmem, ⟨0, _⟩ => ⟨S1x2x16x256, .f32⟩
  | .local _ .vmem, ⟨1, _⟩ => ⟨S1x2x16x256, .f32⟩
  | .local _ .vmem, ⟨2, _⟩ => ⟨S1x2x4096x256, .f32⟩
  | .local _ .vmem, ⟨3, _⟩ => ⟨S1x2x4096x256, .f32⟩
  | .local _ .vmem, ⟨4, _⟩ => ⟨S1x2x4096x256, .f32⟩
  | .local _ .vmem, ⟨5, _⟩ => ⟨S1x2x4096x256, .f32⟩
  | .local _ .vmem, ⟨6, _⟩ => ⟨S1x2x16x256, .f32⟩
  | .local _ .vmem, ⟨7, _⟩ => ⟨S1x2x16x256, .f32⟩
  | .local _ .vmem, ⟨8, _⟩ => ⟨S1x2x16x256, .f32⟩
  | .local _ .vmem, ⟨9, _⟩ => ⟨S1x2x16x256, .f32⟩
  | .local _ .vmem, ⟨10, _⟩ => ⟨S1x1x16x4096, .i32⟩
  | .local _ .vmem, ⟨11, _⟩ => ⟨S1x1x16x4096, .i32⟩
  | .local _ .vmem, ⟨12, _⟩ => ⟨S1x2x16x256, .f32⟩
  | .local _ .vmem, ⟨13, _⟩ => ⟨S1x2x16x256, .f32⟩
  | _, _ => ⟨S8x16x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  natLt_1_32 : 1 < 32
  inb_S1x1x16x4096_S1x1x16x4096_0_0_0_0 : ∀ a, (![0, 0, 0, 0] : Fin 4 → Nat) a + S1x1x16x4096.size a ≤ S1x1x16x4096.size a
  h_S1x1x16x4096 : 0 < S1x1x16x4096.numel
  shapeCasts_S1x1x16x4096_S16x4096 : S1x1x16x4096.ShapeCasts S16x4096
  inb_S1x2x16x256_S1x1x16x256_0_0_0_0 : ∀ a, (![0, 0, 0, 0] : Fin 4 → Nat) a + S1x1x16x256.size a ≤ S1x2x16x256.size a
  h_S1x1x16x256 : 0 < S1x1x16x256.numel
  shapeCasts_S1x1x16x256_S16x256 : S1x1x16x256.ShapeCasts S16x256
  bitsLt_bf16_f32 : FTy.bits .bf16 < FTy.bits .f32
  inb_S1x2x4096x256_S1x1x4096x256_0_0_0_0 : ∀ a, (![0, 0, 0, 0] : Fin 4 → Nat) a + S1x1x4096x256.size a ≤ S1x2x4096x256.size a
  h_S1x1x4096x256 : 0 < S1x1x4096x256.numel
  shapeCasts_S1x1x4096x256_S4096x256 : S1x1x4096x256.ShapeCasts S4096x256
  reduces_S16x4096_S16 : S16x4096.Reduces [1] S16
  shapeCasts_S16_S16x1 : S16.ShapeCasts S16x1
  reduces_S16x16_S16 : S16x16.Reduces [1] S16
  broadcasts_S16x1_S16x4096 : S16x1.Broadcasts S16x4096
  broadcasts_S16x1_S16x16 : S16x1.Broadcasts S16x16
  shapeCasts_S16x256_S1x1x16x256 : S16x256.ShapeCasts S1x1x16x256
  inb_S1x2x16x256_S1x1x16x256_0_1_0_0 : ∀ a, (![0, 1, 0, 0] : Fin 4 → Nat) a + S1x1x16x256.size a ≤ S1x2x16x256.size a
  inb_S1x2x4096x256_S1x1x4096x256_0_1_0_0 : ∀ a, (![0, 1, 0, 0] : Fin 4 → Nat) a + S1x1x4096x256.size a ≤ S1x2x4096x256.size a
  dot_S16x256_S4096x256_S16x4096_1_1_0_0_n_n_wf : DotDims.WF S16x256 S4096x256 S16x4096 [1] [1] [0] [0] [] []
  dot_S16x256_S16x256_S16x16_1_1_0_0_n_n_wf : DotDims.WF S16x256 S16x256 S16x16 [1] [1] [0] [0] [] []
  dot_S16x4096_S4096x256_S16x256_1_0_0_1_n_n_wf : DotDims.WF S16x4096 S4096x256 S16x256 [1] [0] [0] [1] [] []
  dot_S16x16_S16x256_S16x256_1_0_0_1_n_n_wf : DotDims.WF S16x16 S16x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x16x256.size a ≤ S8x16x16x256.size a
  hwx0_0 : ∀ i : grid0.Coords, EltTy.bits .f32 = 32 ∨ (Rect.block (s := S8x16x16x256) S1x2x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x4096x256.size a ≤ S8x16x4096x256.size a
  hwx0_1 : ∀ i : grid0.Coords, EltTy.bits .f32 = 32 ∨ (Rect.block (s := S8x16x4096x256) S1x2x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x4096x256.size a ≤ S8x16x4096x256.size a
  hwx0_2 : ∀ i : grid0.Coords, EltTy.bits .f32 = 32 ∨ (Rect.block (s := S8x16x4096x256) S1x2x4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x16x256.size a ≤ S8x16x16x256.size a
  hwx0_3 : ∀ i : grid0.Coords, EltTy.bits .f32 = 32 ∨ (Rect.block (s := S8x16x16x256) S1x2x16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x16x256.size a ≤ S8x16x16x256.size a
  hwx0_4 : ∀ i : grid0.Coords, EltTy.bits .f32 = 32 ∨ (Rect.block (s := S8x16x16x256) S1x2x16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x16x4096.size a ≤ S8x1x16x4096.size a
  hwx0_5 : ∀ i : grid0.Coords, EltTy.bits .i32 = 32 ∨ (Rect.block (s := S8x1x16x4096) S1x1x16x4096.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x16x256.size a ≤ S8x16x16x256.size a
  hwx0_6 : ∀ i : grid0.Coords, EltTy.bits .f32 = 32 ∨ (Rect.block (s := S8x16x16x256) S1x2x16x256.size (cc0_transform_6 i) (hinb0_6 i)).WholeWords (EltTy.packing .f32)

variable [Facts₀]

def dot_S16x256_S4096x256_S16x4096_1_1_0_0_n_n : DotDims S16x256 S4096x256 S16x4096 where
  lhsContracting := [1]
  rhsContracting := [1]
  lhsNonContracting := [0]
  rhsNonContracting := [0]
  lhsBatch := []
  rhsBatch := []
  wf := dot_S16x256_S4096x256_S16x4096_1_1_0_0_n_n_wf
def dot_S16x256_S16x256_S16x16_1_1_0_0_n_n : DotDims S16x256 S16x256 S16x16 where
  lhsContracting := [1]
  rhsContracting := [1]
  lhsNonContracting := [0]
  rhsNonContracting := [0]
  lhsBatch := []
  rhsBatch := []
  wf := dot_S16x256_S16x256_S16x16_1_1_0_0_n_n_wf
def dot_S16x4096_S4096x256_S16x256_1_0_0_1_n_n : DotDims S16x4096 S4096x256 S16x256 where
  lhsContracting := [1]
  rhsContracting := [0]
  lhsNonContracting := [0]
  rhsNonContracting := [1]
  lhsBatch := []
  rhsBatch := []
  wf := dot_S16x4096_S4096x256_S16x256_1_0_0_1_n_n_wf
def dot_S16x16_S16x256_S16x256_1_0_0_1_n_n : DotDims S16x16 S16x256 S16x256 where
  lhsContracting := [1]
  rhsContracting := [0]
  lhsNonContracting := [0]
  rhsNonContracting := [1]
  lhsBatch := []
  rhsBatch := []
  wf := dot_S16x16_S16x256_S16x256_1_0_0_1_n_n_wf

abbrev win0_0 : Pipeline.Window sig grid0 :=
  Pipeline.Window.ofSpec (Memref.whole main_arg0) S1x2x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2x16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2x16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x16x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2x16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16x16x256 : Shape := ⟨4, ![8, 16, 16, 256]⟩
abbrev S8x16x4096x256 : Shape := ⟨4, ![8, 16, 4096, 256]⟩
abbrev S8x1x16x4096 : Shape := ⟨4, ![8, 1, 16, 4096]⟩
abbrev S8x16x16x4096 : Shape := ⟨4, ![8, 16, 16, 4096]⟩
abbrev S_ : Shape := ⟨0, ![]⟩
abbrev S8x16x16x16 : Shape := ⟨4, ![8, 16, 16, 16]⟩
abbrev S8x16x16 : Shape := ⟨3, ![8, 16, 16]⟩
abbrev S8x16x16x1 : Shape := ⟨4, ![8, 16, 16, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x16x16x256, .f32⟩
  | .hbm, ⟨1, _⟩ => ⟨S8x16x4096x256, .f32⟩
  | .hbm, ⟨2, _⟩ => ⟨S8x16x4096x256, .f32⟩
  | .hbm, ⟨3, _⟩ => ⟨S8x16x16x256, .f32⟩
  | .hbm, ⟨4, _⟩ => ⟨S8x16x16x256, .f32⟩
  | .hbm, ⟨5, _⟩ => ⟨S8x1x16x4096, .i1⟩
  | .hbm, ⟨6, _⟩ => ⟨S8x16x16x4096, .f32⟩
  | .hbm, ⟨7, _⟩ => ⟨S_, .f32⟩
  | .hbm, ⟨8, _⟩ => ⟨S8x16x16x4096, .f32⟩
  | .hbm, ⟨9, _⟩ => ⟨S8x16x16x4096, .f32⟩
  | .hbm, ⟨10, _⟩ => ⟨S8x16x16x16, .f32⟩
  | .hbm, ⟨11, _⟩ => ⟨S_, .f32⟩
  | .hbm, ⟨12, _⟩ => ⟨S8x16x16x16, .f32⟩
  | .hbm, ⟨13, _⟩ => ⟨S8x16x16x16, .f32⟩
  | .hbm, ⟨14, _⟩ => ⟨S_, .f32⟩
  | .hbm, ⟨15, _⟩ => ⟨S8x16x16x4096, .i1⟩
  | .hbm, ⟨16, _⟩ => ⟨S8x16x16x4096, .f32⟩
  | .hbm, ⟨17, _⟩ => ⟨S8x16x16x4096, .f32⟩
  | .hbm, ⟨18, _⟩ => ⟨S_, .f32⟩
  | .hbm, ⟨19, _⟩ => ⟨S8x16x16, .f32⟩
  | .hbm, ⟨20, _⟩ => ⟨S8x16x16x1, .f32⟩
  | .hbm, ⟨21, _⟩ => ⟨S_, .f32⟩
  | .hbm, ⟨22, _⟩ => ⟨S8x16x16, .f32⟩
  | .hbm, ⟨23, _⟩ => ⟨S8x16x16x1, .f32⟩
  | .hbm, ⟨24, _⟩ => ⟨S8x16x16x1, .f32⟩
  | .hbm, ⟨25, _⟩ => ⟨S8x16x16x4096, .f32⟩
  | .hbm, ⟨26, _⟩ => ⟨S8x16x16x4096, .f32⟩
  | .hbm, ⟨27, _⟩ => ⟨S8x16x16x4096, .f32⟩
  | .hbm, ⟨28, _⟩ => ⟨S8x16x16x16, .f32⟩
  | .hbm, ⟨29, _⟩ => ⟨S8x16x16x16, .f32⟩
  | .hbm, ⟨30, _⟩ => ⟨S8x16x16x16, .f32⟩
  | .hbm, ⟨31, _⟩ => ⟨S_, .f32⟩
  | .hbm, ⟨32, _⟩ => ⟨S8x16x16, .f32⟩
  | .hbm, ⟨33, _⟩ => ⟨S8x16x16x1, .f32⟩
  | .hbm, ⟨34, _⟩ => ⟨S_, .f32⟩
  | .hbm, ⟨35, _⟩ => ⟨S8x16x16, .f32⟩
  | .hbm, ⟨36, _⟩ => ⟨S8x16x16x1, .f32⟩
  | .hbm, ⟨37, _⟩ => ⟨S8x16x16x1, .f32⟩
  | .hbm, ⟨38, _⟩ => ⟨S8x16x16x4096, .f32⟩
  | .hbm, ⟨39, _⟩ => ⟨S8x16x16x4096, .f32⟩
  | .hbm, ⟨40, _⟩ => ⟨S8x16x16x16, .f32⟩
  | .hbm, ⟨41, _⟩ => ⟨S8x16x16x16, .f32⟩
  | .hbm, ⟨42, _⟩ => ⟨S8x16x16x256, .f32⟩
  | .hbm, ⟨43, _⟩ => ⟨S8x16x16x256, .f32⟩
  | .hbm, ⟨44, _⟩ => ⟨S8x16x16x256, .f32⟩
  | _, _ => ⟨S8x16x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S8x16x16x4096 : S_.BroadcastsInDim S8x16x16x4096 (![] : Fin 0 → Fin S8x16x16x4096.rank)
  bcast_S_S8x16x16x16 : S_.BroadcastsInDim S8x16x16x16 (![] : Fin 0 → Fin S8x16x16x16.rank)
  bcast_S8x1x16x4096_S8x16x16x4096_0_1_2_3 : S8x1x16x4096.BroadcastsInDim S8x16x16x4096 (![0, 1, 2, 3] : Fin 4 → Fin S8x16x16x4096.rank)
  reducesTo_S8x16x16x4096_S8x16x16_d3 : S8x16x16x4096.ReducesTo [3] S8x16x16
  h_S_ : 0 < S_.numel
  bcast_S8x16x16_S8x16x16x1_0_1_2 : S8x16x16.BroadcastsInDim S8x16x16x1 (![0, 1, 2] : Fin 3 → Fin S8x16x16x1.rank)
  reducesTo_S8x16x16x16_S8x16x16_d3 : S8x16x16x16.ReducesTo [3] S8x16x16
  bcast_S8x16x16x1_S8x16x16x4096_0_1_2_3 : S8x16x16x1.BroadcastsInDim S8x16x16x4096 (![0, 1, 2, 3] : Fin 4 → Fin S8x16x16x4096.rank)
  bcast_S8x16x16x1_S8x16x16x16_0_1_2_3 : S8x16x16x1.BroadcastsInDim S8x16x16x16 (![0, 1, 2, 3] : Fin 4 → Fin S8x16x16x16.rank)
  dot_S8x16x16x256_S8x16x4096x256_S8x16x16x4096_3_3_2_2_01_01_wf : DotDims.WF S8x16x16x256 S8x16x4096x256 S8x16x16x4096 [3] [3] [2] [2] [0, 1] [0, 1]
  dot_S8x16x16x256_S8x16x16x256_S8x16x16x16_3_3_2_2_01_01_wf : DotDims.WF S8x16x16x256 S8x16x16x256 S8x16x16x16 [3] [3] [2] [2] [0, 1] [0, 1]
  dot_S8x16x16x4096_S8x16x4096x256_S8x16x16x256_3_2_2_3_01_01_wf : DotDims.WF S8x16x16x4096 S8x16x4096x256 S8x16x16x256 [3] [2] [2] [3] [0, 1] [0, 1]
  dot_S8x16x16x16_S8x16x16x256_S8x16x16x256_3_2_2_3_01_01_wf : DotDims.WF S8x16x16x16 S8x16x16x256 S8x16x16x256 [3] [2] [2] [3] [0, 1] [0, 1]

variable [Facts₀]

def dot_S8x16x16x256_S8x16x4096x256_S8x16x16x4096_3_3_2_2_01_01 : DotDims S8x16x16x256 S8x16x4096x256 S8x16x16x4096 where
  lhsContracting := [3]
  rhsContracting := [3]
  lhsNonContracting := [2]
  rhsNonContracting := [2]
  lhsBatch := [0, 1]
  rhsBatch := [0, 1]
  wf := dot_S8x16x16x256_S8x16x4096x256_S8x16x16x4096_3_3_2_2_01_01_wf
def dot_S8x16x16x256_S8x16x16x256_S8x16x16x16_3_3_2_2_01_01 : DotDims S8x16x16x256 S8x16x16x256 S8x16x16x16 where
  lhsContracting := [3]
  rhsContracting := [3]
  lhsNonContracting := [2]
  rhsNonContracting := [2]
  lhsBatch := [0, 1]
  rhsBatch := [0, 1]
  wf := dot_S8x16x16x256_S8x16x16x256_S8x16x16x16_3_3_2_2_01_01_wf
def dot_S8x16x16x4096_S8x16x4096x256_S8x16x16x256_3_2_2_3_01_01 : DotDims S8x16x16x4096 S8x16x4096x256 S8x16x16x256 where
  lhsContracting := [3]
  rhsContracting := [2]
  lhsNonContracting := [2]
  rhsNonContracting := [3]
  lhsBatch := [0, 1]
  rhsBatch := [0, 1]
  wf := dot_S8x16x16x4096_S8x16x4096x256_S8x16x16x256_3_2_2_3_01_01_wf
def dot_S8x16x16x16_S8x16x16x256_S8x16x16x256_3_2_2_3_01_01 : DotDims S8x16x16x16 S8x16x16x256 S8x16x16x256 where
  lhsContracting := [3]
  rhsContracting := [2]
  lhsNonContracting := [2]
  rhsNonContracting := [3]
  lhsBatch := [0, 1]
  rhsBatch := [0, 1]
  wf := dot_S8x16x16x16_S8x16x16x256_S8x16x16x256_3_2_2_3_01_01_wf

class Facts : Prop extends Facts₀ where

variable [Facts]
-- ==== Proof.KDots.lean ====
/-
  The kernel's four matrix products at the ideal instance, read at an output index as plain sums over the one
  contracted axis:
    scores   [16,256] · [n,256]ᵀ   at (r, k):  Σ_e  left (r, e) · right (k, e)      (n = 4096 prior keys, n = 16 active keys)
    outputs  [16,n] · [n,256]      at (r, d):  Σ_k  left (r, k) · right (k, d)      (n = 4096 prior values, n = 16 active values)
  Each product accumulates into a zero block, so nothing but the sum is left. The contraction index of a product is
  re-indexed by its one coordinate.
-/
import proofs.«424415_j7069516169836_3_alg».proof.Proof.Gen.KernelIdeal
import Idealize.ShloMosaic.Lib.ValueIdx
import Idealize.ShloMosaic.PureOps.Ideal.Laws

noncomputable section

namespace Cert.KernelIdeal.Head

open Cert.KernelIdeal Cert.KernelIdeal.Gen Idealize.ShloMosaic Idealize.ShloMosaic.ValueIdx

/-! ## Prior scores: a [16,256] block against the rows of a [4096,256] block -/

theorem sp_lhs_0 (i : S16x4096.Idx) (q : dot_S16x256_S4096x256_S16x4096_1_1_0_0_n_n.contr.Idx) :
    (dot_S16x256_S4096x256_S16x4096_1_1_0_0_n_n.lhsIdx i q 0).val = (i 0).val := by
  unfold DotDims.lhsIdx
  rw [dif_neg (show ¬(0 : Fin S16x256.rank) ∈ dot_S16x256_S4096x256_S16x4096_1_1_0_0_n_n.lhsBatch by decide),
    dif_pos (show (0 : Fin S16x256.rank) ∈ dot_S16x256_S4096x256_S16x4096_1_1_0_0_n_n.lhsNonContracting by decide)]
  rfl
theorem sp_lhs_1 (i : S16x4096.Idx) (q : dot_S16x256_S4096x256_S16x4096_1_1_0_0_n_n.contr.Idx) :
    (dot_S16x256_S4096x256_S16x4096_1_1_0_0_n_n.lhsIdx i q 1).val = (q ⟨0, by decide⟩).val :=
  dot_S16x256_S4096x256_S16x4096_1_1_0_0_n_n.lhsIdx_val_of_single rfl i q
theorem sp_rhs_0 (i : S16x4096.Idx) (q : dot_S16x256_S4096x256_S16x4096_1_1_0_0_n_n.contr.Idx) :
    (dot_S16x256_S4096x256_S16x4096_1_1_0_0_n_n.rhsIdx i q 0).val = (i 1).val := by
  unfold DotDims.rhsIdx
  rw [dif_neg (show ¬(0 : Fin S4096x256.rank) ∈ dot_S16x256_S4096x256_S16x4096_1_1_0_0_n_n.rhsBatch by decide),
    dif_pos (show (0 : Fin S4096x256.rank) ∈ dot_S16x256_S4096x256_S16x4096_1_1_0_0_n_n.rhsNonContracting by decide)]
  rfl
theorem sp_rhs_1 (i : S16x4096.Idx) (q : dot_S16x256_S4096x256_S16x4096_1_1_0_0_n_n.contr.Idx) :
    (dot_S16x256_S4096x256_S16x4096_1_1_0_0_n_n.rhsIdx i q 1).val = (q ⟨0, by decide⟩).val :=
  dot_S16x256_S4096x256_S16x4096_1_1_0_0_n_n.rhsIdx_val_of_single rfl i q

/-- The prior scores at (r, k): the dot product of the left block's row r with the right block's row k. -/
theorem sp_apply {φ₁ φ₂ : FTy} (l : FVec Ideal S16x256 φ₁) (r : FVec Ideal S4096x256 φ₂) (i : S16x4096.Idx) :
    matmul dot_S16x256_S4096x256_S16x4096_1_1_0_0_n_n none l r (constant S16x4096 .f32 0x00000000#32) i
      = ∑ e : Fin 256, l (ix2 (i 0) e) * r (ix2 (i 1) e) := by
  simp only [matmul]
  rw [Ideal.matmul_constant_zero_apply, ← Equiv.sum_comp (contrEquiv1 dot_S16x256_S4096x256_S16x4096_1_1_0_0_n_n 256 rfl rfl).symm]
  refine Finset.sum_congr rfl fun k _ => ?_
  have hk := contrEquiv1_symm_val dot_S16x256_S4096x256_S16x4096_1_1_0_0_n_n 256 rfl rfl k
  have el : dot_S16x256_S4096x256_S16x4096_1_1_0_0_n_n.lhsIdx i ((contrEquiv1 dot_S16x256_S4096x256_S16x4096_1_1_0_0_n_n 256 rfl rfl).symm k) = ix2 (i 0) k :=
    funext fun a => Fin.ext (by
      match a with
      | ⟨0, _⟩ => exact sp_lhs_0 _ _
      | ⟨1, _⟩ => exact (sp_lhs_1 _ _).trans hk)
  have er : dot_S16x256_S4096x256_S16x4096_1_1_0_0_n_n.rhsIdx i ((contrEquiv1 dot_S16x256_S4096x256_S16x4096_1_1_0_0_n_n 256 rfl rfl).symm k) = ix2 (i 1) k :=
    funext fun a => Fin.ext (by
      match a with
      | ⟨0, _⟩ => exact sp_rhs_0 _ _
      | ⟨1, _⟩ => exact (sp_rhs_1 _ _).trans hk)
  rw [el, er]
  rfl

/-! ## Active scores: a [16,256] block against the rows of a [16,256] block -/

theorem sa_lhs_0 (i : S16x16.Idx) (q : dot_S16x256_S16x256_S16x16_1_1_0_0_n_n.contr.Idx) :
    (dot_S16x256_S16x256_S16x16_1_1_0_0_n_n.lhsIdx i q 0).val = (i 0).val := by
  unfold DotDims.lhsIdx
  rw [dif_neg (show ¬(0 : Fin S16x256.rank) ∈ dot_S16x256_S16x256_S16x16_1_1_0_0_n_n.lhsBatch by decide),
    dif_pos (show (0 : Fin S16x256.rank) ∈ dot_S16x256_S16x256_S16x16_1_1_0_0_n_n.lhsNonContracting by decide)]
  rfl
theorem sa_lhs_1 (i : S16x16.Idx) (q : dot_S16x256_S16x256_S16x16_1_1_0_0_n_n.contr.Idx) :
    (dot_S16x256_S16x256_S16x16_1_1_0_0_n_n.lhsIdx i q 1).val = (q ⟨0, by decide⟩).val :=
  dot_S16x256_S16x256_S16x16_1_1_0_0_n_n.lhsIdx_val_of_single rfl i q
theorem sa_rhs_0 (i : S16x16.Idx) (q : dot_S16x256_S16x256_S16x16_1_1_0_0_n_n.contr.Idx) :
    (dot_S16x256_S16x256_S16x16_1_1_0_0_n_n.rhsIdx i q 0).val = (i 1).val := by
  unfold DotDims.rhsIdx
  rw [dif_neg (show ¬(0 : Fin S16x256.rank) ∈ dot_S16x256_S16x256_S16x16_1_1_0_0_n_n.rhsBatch by decide),
    dif_pos (show (0 : Fin S16x256.rank) ∈ dot_S16x256_S16x256_S16x16_1_1_0_0_n_n.rhsNonContracting by decide)]
  rfl
theorem sa_rhs_1 (i : S16x16.Idx) (q : dot_S16x256_S16x256_S16x16_1_1_0_0_n_n.contr.Idx) :
    (dot_S16x256_S16x256_S16x16_1_1_0_0_n_n.rhsIdx i q 1).val = (q ⟨0, by decide⟩).val :=
  dot_S16x256_S16x256_S16x16_1_1_0_0_n_n.rhsIdx_val_of_single rfl i q

/-- The active scores at (r, j): the dot product of the left block's row r with the right block's row j. -/
theorem sa_apply {φ₁ φ₂ : FTy} (l : FVec Ideal S16x256 φ₁) (r : FVec Ideal S16x256 φ₂) (i : S16x16.Idx) :
    matmul dot_S16x256_S16x256_S16x16_1_1_0_0_n_n none l r (constant S16x16 .f32 0x00000000#32) i
      = ∑ e : Fin 256, l (ix2 (i 0) e) * r (ix2 (i 1) e) := by
  simp only [matmul]
  rw [Ideal.matmul_constant_zero_apply, ← Equiv.sum_comp (contrEquiv1 dot_S16x256_S16x256_S16x16_1_1_0_0_n_n 256 rfl rfl).symm]
  refine Finset.sum_congr rfl fun k _ => ?_
  have hk := contrEquiv1_symm_val dot_S16x256_S16x256_S16x16_1_1_0_0_n_n 256 rfl rfl k
  have el : dot_S16x256_S16x256_S16x16_1_1_0_0_n_n.lhsIdx i ((contrEquiv1 dot_S16x256_S16x256_S16x16_1_1_0_0_n_n 256 rfl rfl).symm k) = ix2 (i 0) k :=
    funext fun a => Fin.ext (by
      match a with
      | ⟨0, _⟩ => exact sa_lhs_0 _ _
      | ⟨1, _⟩ => exact (sa_lhs_1 _ _).trans hk)
  have er : dot_S16x256_S16x256_S16x16_1_1_0_0_n_n.rhsIdx i ((contrEquiv1 dot_S16x256_S16x256_S16x16_1_1_0_0_n_n 256 rfl rfl).symm k) = ix2 (i 1) k :=
    funext fun a => Fin.ext (by
      match a with
      | ⟨0, _⟩ => exact sa_rhs_0 _ _
      | ⟨1, _⟩ => exact (sa_rhs_1 _ _).trans hk)
  rw [el, er]
  rfl

/-! ## Prior outputs: a [16,4096] block of weights against the columns of a [4096,256] block -/

theorem op_lhs_0 (i : S16x256.Idx) (q : dot_S16x4096_S4096x256_S16x256_1_0_0_1_n_n.contr.Idx) :
    (dot_S16x4096_S4096x256_S16x256_1_0_0_1_n_n.lhsIdx i q 0).val = (i 0).val := by
  unfold DotDims.lhsIdx
  rw [dif_neg (show ¬(0 : Fin S16x4096.rank) ∈ dot_S16x4096_S4096x256_S16x256_1_0_0_1_n_n.lhsBatch by decide),
    dif_pos (show (0 : Fin S16x4096.rank) ∈ dot_S16x4096_S4096x256_S16x256_1_0_0_1_n_n.lhsNonContracting by decide)]
  rfl
theorem op_lhs_1 (i : S16x256.Idx) (q : dot_S16x4096_S4096x256_S16x256_1_0_0_1_n_n.contr.Idx) :
    (dot_S16x4096_S4096x256_S16x256_1_0_0_1_n_n.lhsIdx i q 1).val = (q ⟨0, by decide⟩).val :=
  dot_S16x4096_S4096x256_S16x256_1_0_0_1_n_n.lhsIdx_val_of_single rfl i q
theorem op_rhs_0 (i : S16x256.Idx) (q : dot_S16x4096_S4096x256_S16x256_1_0_0_1_n_n.contr.Idx) :
    (dot_S16x4096_S4096x256_S16x256_1_0_0_1_n_n.rhsIdx i q 0).val = (q ⟨0, by decide⟩).val :=
  dot_S16x4096_S4096x256_S16x256_1_0_0_1_n_n.rhsIdx_val_of_single rfl i q
theorem op_rhs_1 (i : S16x256.Idx) (q : dot_S16x4096_S4096x256_S16x256_1_0_0_1_n_n.contr.Idx) :
    (dot_S16x4096_S4096x256_S16x256_1_0_0_1_n_n.rhsIdx i q 1).val = (i 1).val := by
  unfold DotDims.rhsIdx
  rw [dif_neg (show ¬(1 : Fin S4096x256.rank) ∈ dot_S16x4096_S4096x256_S16x256_1_0_0_1_n_n.rhsBatch by decide),
    dif_pos (show (1 : Fin S4096x256.rank) ∈ dot_S16x4096_S4096x256_S16x256_1_0_0_1_n_n.rhsNonContracting by decide)]
  rfl

/-- The prior part of the output at (r, d): the weights' row r against the values' column d. -/
theorem op_apply {φ₁ φ₂ : FTy} (l : FVec Ideal S16x4096 φ₁) (r : FVec Ideal S4096x256 φ₂) (i : S16x256.Idx) :
    matmul dot_S16x4096_S4096x256_S16x256_1_0_0_1_n_n none l r (constant S16x256 .f32 0x00000000#32) i
      = ∑ k : Fin 4096, l (ix2 (i 0) k) * r (ix2 k (i 1)) := by
  simp only [matmul]
  rw [Ideal.matmul_constant_zero_apply, ← Equiv.sum_comp (contrEquiv1 dot_S16x4096_S4096x256_S16x256_1_0_0_1_n_n 4096 rfl rfl).symm]
  refine Finset.sum_congr rfl fun k _ => ?_
  have hk := contrEquiv1_symm_val dot_S16x4096_S4096x256_S16x256_1_0_0_1_n_n 4096 rfl rfl k
  have el : dot_S16x4096_S4096x256_S16x256_1_0_0_1_n_n.lhsIdx i ((contrEquiv1 dot_S16x4096_S4096x256_S16x256_1_0_0_1_n_n 4096 rfl rfl).symm k) = ix2 (i 0) k :=
    funext fun a => Fin.ext (by
      match a with
      | ⟨0, _⟩ => exact op_lhs_0 _ _
      | ⟨1, _⟩ => exact (op_lhs_1 _ _).trans hk)
  have er : dot_S16x4096_S4096x256_S16x256_1_0_0_1_n_n.rhsIdx i ((contrEquiv1 dot_S16x4096_S4096x256_S16x256_1_0_0_1_n_n 4096 rfl rfl).symm k) = ix2 k (i 1) :=
    funext fun a => Fin.ext (by
      match a with
      | ⟨0, _⟩ => exact (op_rhs_0 _ _).trans hk
      | ⟨1, _⟩ => exact op_rhs_1 _ _)
  rw [el, er]
  rfl

/-! ## Active outputs: a [16,16] block of weights against the columns of a [16,256] block -/

theorem oa_lhs_0 (i : S16x256.Idx) (q : dot_S16x16_S16x256_S16x256_1_0_0_1_n_n.contr.Idx) :
    (dot_S16x16_S16x256_S16x256_1_0_0_1_n_n.lhsIdx i q 0).val = (i 0).val := by
  unfold DotDims.lhsIdx
  rw [dif_neg (show ¬(0 : Fin S16x16.rank) ∈ dot_S16x16_S16x256_S16x256_1_0_0_1_n_n.lhsBatch by decide),
    dif_pos (show (0 : Fin S16x16.rank) ∈ dot_S16x16_S16x256_S16x256_1_0_0_1_n_n.lhsNonContracting by decide)]
  rfl
theorem oa_lhs_1 (i : S16x256.Idx) (q : dot_S16x16_S16x256_S16x256_1_0_0_1_n_n.contr.Idx) :
    (dot_S16x16_S16x256_S16x256_1_0_0_1_n_n.lhsIdx i q 1).val = (q ⟨0, by decide⟩).val :=
  dot_S16x16_S16x256_S16x256_1_0_0_1_n_n.lhsIdx_val_of_single rfl i q
theorem oa_rhs_0 (i : S16x256.Idx) (q : dot_S16x16_S16x256_S16x256_1_0_0_1_n_n.contr.Idx) :
    (dot_S16x16_S16x256_S16x256_1_0_0_1_n_n.rhsIdx i q 0).val = (q ⟨0, by decide⟩).val :=
  dot_S16x16_S16x256_S16x256_1_0_0_1_n_n.rhsIdx_val_of_single rfl i q
theorem oa_rhs_1 (i : S16x256.Idx) (q : dot_S16x16_S16x256_S16x256_1_0_0_1_n_n.contr.Idx) :
    (dot_S16x16_S16x256_S16x256_1_0_0_1_n_n.rhsIdx i q 1).val = (i 1).val := by
  unfold DotDims.rhsIdx
  rw [dif_neg (show ¬(1 : Fin S16x256.rank) ∈ dot_S16x16_S16x256_S16x256_1_0_0_1_n_n.rhsBatch by decide),
    dif_pos (show (1 : Fin S16x256.rank) ∈ dot_S16x16_S16x256_S16x256_1_0_0_1_n_n.rhsNonContracting by decide)]
  rfl

/-- The active part of the output at (r, d): the weights' row r against the values' column d. -/
theorem oa_apply {φ₁ φ₂ : FTy} (l : FVec Ideal S16x16 φ₁) (r : FVec Ideal S16x256 φ₂) (i : S16x256.Idx) :
    matmul dot_S16x16_S16x256_S16x256_1_0_0_1_n_n none l r (constant S16x256 .f32 0x00000000#32) i
      = ∑ k : Fin 16, l (ix2 (i 0) k) * r (ix2 k (i 1)) := by
  simp only [matmul]
  rw [Ideal.matmul_constant_zero_apply, ← Equiv.sum_comp (contrEquiv1 dot_S16x16_S16x256_S16x256_1_0_0_1_n_n 16 rfl rfl).symm]
  refine Finset.sum_congr rfl fun k _ => ?_
  have hk := contrEquiv1_symm_val dot_S16x16_S16x256_S16x256_1_0_0_1_n_n 16 rfl rfl k
  have el : dot_S16x16_S16x256_S16x256_1_0_0_1_n_n.lhsIdx i ((contrEquiv1 dot_S16x16_S16x256_S16x256_1_0_0_1_n_n 16 rfl rfl).symm k) = ix2 (i 0) k :=
    funext fun a => Fin.ext (by
      match a with
      | ⟨0, _⟩ => exact oa_lhs_0 _ _
      | ⟨1, _⟩ => exact (oa_lhs_1 _ _).trans hk)
  have er : dot_S16x16_S16x256_S16x256_1_0_0_1_n_n.rhsIdx i ((contrEquiv1 dot_S16x16_S16x256_S16x256_1_0_0_1_n_n 16 rfl rfl).symm k) = ix2 k (i 1) :=
    funext fun a => Fin.ext (by
      match a with
      | ⟨0, _⟩ => exact (oa_rhs_0 _ _).trans hk
      | ⟨1, _⟩ => exact oa_rhs_1 _ _)
  rw [el, er]
  rfl

end Cert.KernelIdeal.Head

end
-- ==== Proof.RowLaw.lean ====
/-
  One query row of joint softmax attention, over the extended reals.

  A row has scores against the prior keys (`sp`, already masked) and against the active keys (`sa`). Both programs
  subtract the joint maximum `M = max (max_k sp k) (max_j sa j)`, exponentiate, and normalize by
  `den = Σ_k exp (sp k - M) + Σ_j exp (sa j - M)`; the row's output at a value column is
  `Σ_k w_k · vp k + Σ_j w_j · va j`. The two programs differ in how a weight is formed: one divides each exponential by
  `den`, the other multiplies it by the reciprocal `1 / den`. On the extended reals the two agree exactly when
  `den ≠ 0`; here `den` is positive because the active scores are real numbers (so `M` is a real number and the
  exponential of `sa j - M` is a positive real) and every exponential is nonnegative.

  The second law is the score scale: for real `q`, `k`, `s` the dot product of `q · s` with `k` is the dot product of
  `q` with `k`, times `s` (distributivity, which on the extended reals needs the entries to be finite).
-/
import Idealize.ShloMosaic.PureOps.Ideal.Laws
import Idealize.ShloMosaic.Lib.IdealHost

noncomputable section

namespace Cert.Attn

open Idealize.ShloMosaic
open scoped BigOperators

variable {P A : Type} [Fintype P] [Fintype A]

/-- The joint maximum of a row: each side's maximum folded from `lo`, then the larger of the two. -/
def rowMax (lo : EReal) (sp : P → EReal) (sa : A → EReal) : EReal :=
  max (Finset.univ.fold max lo sp) (Finset.univ.fold max lo sa)

/-- The row's normalizer: the sum of all exponentials of the shifted scores. -/
def rowDen (lo : EReal) (sp : P → EReal) (sa : A → EReal) : EReal :=
  (∑ k, Ideal.exp (sp k - rowMax lo sp sa)) + ∑ j, Ideal.exp (sa j - rowMax lo sp sa)

/-- The row's output at one value column, each weight an exponential DIVIDED by the normalizer. -/
def rowOut (lo : EReal) (sp : P → EReal) (sa : A → EReal) (vp : P → EReal) (va : A → EReal) : EReal :=
  (∑ k, Ideal.div (Ideal.exp (sp k - rowMax lo sp sa)) (rowDen lo sp sa) * vp k)
    + ∑ j, Ideal.div (Ideal.exp (sa j - rowMax lo sp sa)) (rowDen lo sp sa) * va j

/-- The same output, each weight an exponential TIMES the reciprocal of the normalizer. -/
def rowOutRecip (lo : EReal) (sp : P → EReal) (sa : A → EReal) (vp : P → EReal) (va : A → EReal) : EReal :=
  (∑ k, (Ideal.exp (sp k - rowMax lo sp sa) * Ideal.div 1 (rowDen lo sp sa)) * vp k)
    + ∑ j, (Ideal.exp (sa j - rowMax lo sp sa) * Ideal.div 1 (rowDen lo sp sa)) * va j

/-- The exponential is nowhere negative: zero at `-∞`, a positive real at a real, `+∞` at `+∞`. -/
theorem exp_nonneg (x : EReal) : 0 ≤ Ideal.exp x := by
  induction x using EReal.rec with
  | bot => simp
  | coe r => rw [Ideal.exp_coe]; exact EReal.coe_nonneg.mpr (Real.exp_pos r).le
  | top => simp

/-- No score is `+∞`, so neither is the joint maximum. -/
theorem rowMax_lt_top {lo : EReal} {sp : P → EReal} {sa : A → EReal} (hlo : lo ≠ ⊤) (hsp : ∀ k, sp k ≠ ⊤)
    (hsa : ∀ j, sa j ≠ ⊤) : rowMax lo sp sa < ⊤ := by
  unfold rowMax
  rw [max_lt_iff, Finset.fold_max_lt, Finset.fold_max_lt]
  exact ⟨⟨lt_top_iff_ne_top.mpr hlo, fun k _ => lt_top_iff_ne_top.mpr (hsp k)⟩,
    ⟨lt_top_iff_ne_top.mpr hlo, fun j _ => lt_top_iff_ne_top.mpr (hsa j)⟩⟩

/-- Every active score is below the joint maximum. -/
theorem le_rowMax_active (lo : EReal) (sp : P → EReal) (sa : A → EReal) (j : A) : sa j ≤ rowMax lo sp sa := by
  have h : sa j ≤ Finset.univ.fold max lo sa := by
    rw [Finset.le_fold_max]; exact Or.inr ⟨j, Finset.mem_univ j, le_rfl⟩
  exact le_max_of_le_right h

/-- With real active scores (at least one of them) and no score at `+∞`, the normalizer is positive: the joint maximum
    is a real number, one active exponential is a positive real, and the other terms are nonnegative. -/
theorem rowDen_pos {lo : EReal} {sp : P → EReal} {sa : A → EReal} (hlo : lo ≠ ⊤) (hsp : ∀ k, sp k ≠ ⊤)
    (hsa : ∀ j, ∃ r : ℝ, sa j = (r : EReal)) (j0 : A) : 0 < rowDen lo sp sa := by
  obtain ⟨r0, hr0⟩ := hsa j0
  have hM_top : rowMax lo sp sa ≠ ⊤ :=
    (rowMax_lt_top hlo hsp fun j => by obtain ⟨r, hr⟩ := hsa j; rw [hr]; exact EReal.coe_ne_top r).ne
  have hM_bot : rowMax lo sp sa ≠ ⊥ := by
    intro h
    have h1 := le_rowMax_active lo sp sa j0
    rw [h, hr0] at h1
    exact absurd (le_bot_iff.mp h1) (EReal.coe_ne_bot r0)
  obtain ⟨μ, hμ⟩ : ∃ μ : ℝ, rowMax lo sp sa = (μ : EReal) := ⟨_, (EReal.coe_toReal hM_top hM_bot).symm⟩
  unfold rowDen
  rw [hμ]
  have hpos : 0 < Ideal.exp (sa j0 - (μ : EReal)) := by
    rw [hr0, ← EReal.coe_sub, Ideal.exp_coe]; exact EReal.coe_pos.mpr (Real.exp_pos _)
  calc (0 : EReal) < Ideal.exp (sa j0 - (μ : EReal)) := hpos
    _ ≤ ∑ j, Ideal.exp (sa j - (μ : EReal)) :=
        Finset.single_le_sum (f := fun j => Ideal.exp (sa j - (μ : EReal))) (fun j _ => exp_nonneg _) (Finset.mem_univ j0)
    _ ≤ _ := le_add_of_nonneg_left (Finset.sum_nonneg fun k _ => exp_nonneg _)

/-- THE WEIGHT LAW: multiplying by the reciprocal of a positive normalizer is dividing by it, weight by weight. -/
theorem rowOutRecip_eq_rowOut {lo : EReal} {sp : P → EReal} {sa : A → EReal} (vp : P → EReal) (va : A → EReal)
    (hlo : lo ≠ ⊤) (hsp : ∀ k, sp k ≠ ⊤) (hsa : ∀ j, ∃ r : ℝ, sa j = (r : EReal)) (j0 : A) :
    rowOutRecip lo sp sa vp va = rowOut lo sp sa vp va := by
  have hden : rowDen lo sp sa ≠ 0 := (rowDen_pos hlo hsp hsa j0).ne'
  unfold rowOutRecip rowOut
  simp only [Ideal.mul_one_div hden]

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dot product of real vectors is a real number. -/
theorem dot_coe {ι : Type} [Fintype ι] (q k : ι → ℝ) :
    ∑ e, (q e : EReal) * (k e : EReal) = ((∑ e, q e * k e : ℝ) : EReal) := by
  rw [coe_sum]; exact Finset.sum_congr rfl fun e _ => (EReal.coe_mul _ _).symm

/-- THE SCALE LAW: for real entries, scaling the query before the dot product is scaling the dot product. -/
theorem dot_scale {ι : Type} [Fintype ι] (q k : ι → ℝ) (s : ℝ) :
    ∑ e, ((q e : EReal) * (s : EReal)) * (k e : EReal) = (∑ e, (q e : EReal) * (k e : EReal)) * (s : EReal) := by
  rw [dot_coe, ← EReal.coe_mul, Finset.sum_mul, coe_sum]
  exact Finset.sum_congr rfl fun e _ => by rw [← EReal.coe_mul, ← EReal.coe_mul]; congr 1; ring

end Cert.Attn

end
-- ==== Proof.Spec.lean ====
/-
  Joint masked softmax attention of one query row, as each program arranges it, and the law that joins the two.

  For a query row `qrow` (256 entries), prior keys `kp k` and active keys `ka j` (rows of 256 entries), a mask bit per
  prior key `mk k`, and one value column `vp k`, `va j`:

    score against a key  = ⟨qrow, key⟩ / 16                (the scale 256^(-1/2) = 1/16)
    prior score k        = that score where `mk k` is set, the most negative finite f32 where it is not
    M                    = max over all prior and active scores
    den                  = Σ_k exp (prior k - M) + Σ_j exp (active j - M)
    output               = Σ_k (exp (prior k - M) / den) · vp k + Σ_j (exp (active j - M) / den) · va j

  `coreOuter` scales the finished dot product and divides each exponential by `den`; `coreInner` scales the query row
  before the dot product and multiplies each exponential by `1 / den`. With real (finite) query and key entries the two
  are equal: the scale moves across the finite sum by distributivity, every score is then a real number, so `den` is a
  positive real and multiplying by its reciprocal is dividing by it.
-/
import proofs.«424415_j7069516169836_3_alg».proof.Proof.RowLaw
import Idealize.ShloMosaic.Lib.ValueIdx

noncomputable section

namespace Cert.Attn

open Idealize.ShloMosaic Idealize.ShloMosaic.ValueIdx
open scoped BigOperators

/-- The score scale `256^(-1/2)`, as both programs spell it: the f32 pattern of `0.0625`. -/
abbrev scale : EReal := Ideal.ofBits .f32 0x3D800000#32
/-- What a masked-out prior score is replaced by: the most negative finite f32. -/
abbrev fill : EReal := Ideal.ofBits .f32 0xFF7FFFFF#32
/-- What both maxima are folded from: the f32 pattern of `-∞`. -/
abbrev lo : EReal := Ideal.ofBits .f32 0xFF800000#32

/-- The scale is the real number one sixteenth. -/
theorem scale_eq : scale = (((1 : ℝ) / 16 : ℝ) : EReal) := by
  simp [scale, Ideal.ofBits, Ideal.ieee, -EReal.coe_mul]; norm_num

/-- The fill value is a (finite) real number, so it is not `+∞`. -/
theorem fill_ne_top : fill ≠ ⊤ := by
  simp [fill, Ideal.ofBits, Ideal.ieee, -EReal.coe_mul]

/-- The maxima start from `-∞`, which is not `+∞`. -/
theorem lo_ne_top : lo ≠ ⊤ := by
  simp [lo, Ideal.ofBits, Ideal.ieee]

/-- A row's prior scores with the scale applied to the finished dot product (the reference's arrangement). -/
def priorOuter (qrow : Fin 256 → EReal) (kp : Fin 4096 → Fin 256 → EReal) (mk : Fin 4096 → BitVec 1) (k : Fin 4096) : EReal :=
  Scalar.select (mk k) ((∑ e, qrow e * kp k e) * scale) fill

/-- A row's active scores, the scale applied to the finished dot product. -/
def activeOuter (qrow : Fin 256 → EReal) (ka : Fin 16 → Fin 256 → EReal) (j : Fin 16) : EReal :=
  (∑ e, qrow e * ka j e) * scale

/-- A row's prior scores with the query row scaled first (the kernel's arrangement). -/
def priorInner (qrow : Fin 256 → EReal) (kp : Fin 4096 → Fin 256 → EReal) (mk : Fin 4096 → BitVec 1) (k : Fin 4096) : EReal :=
  Scalar.select (mk k) (∑ e, (qrow e * scale) * kp k e) fill

/-- A row's active scores, the query row scaled first. -/
def activeInner (qrow : Fin 256 → EReal) (ka : Fin 16 → Fin 256 → EReal) (j : Fin 16) : EReal :=
  ∑ e, (qrow e * scale) * ka j e

/-- One output element in the reference's arrangement: scale outside the dot product, weights by division. -/
def coreOuter (qrow : Fin 256 → EReal) (kp : Fin 4096 → Fin 256 → EReal) (ka : Fin 16 → Fin 256 → EReal)
    (mk : Fin 4096 → BitVec 1) (vp : Fin 4096 → EReal) (va : Fin 16 → EReal) : EReal :=
  rowOut lo (priorOuter qrow kp mk) (activeOuter qrow ka) vp va

/-- One output element in the kernel's arrangement: scale inside the dot product, weights by the reciprocal. -/
def coreInner (qrow : Fin 256 → EReal) (kp : Fin 4096 → Fin 256 → EReal) (ka : Fin 16 → Fin 256 → EReal)
    (mk : Fin 4096 → BitVec 1) (vp : Fin 4096 → EReal) (va : Fin 16 → EReal) : EReal :=
  rowOutRecip lo (priorInner qrow kp mk) (activeInner qrow ka) vp va

/-- A selection between two values neither of which is `+∞` is not `+∞`. -/
theorem select_ne_top (c : BitVec 1) {a b : EReal} (ha : a ≠ ⊤) (hb : b ≠ ⊤) : Scalar.select c a b ≠ ⊤ := by
  unfold Scalar.select; split <;> assumption

/-- THE LAW: with real query and key entries the kernel's arrangement equals the reference's. -/
theorem coreInner_eq_coreOuter (qrow : Fin 256 → EReal) (kp : Fin 4096 → Fin 256 → EReal) (ka : Fin 16 → Fin 256 → EReal)
    (mk : Fin 4096 → BitVec 1) (vp : Fin 4096 → EReal) (va : Fin 16 → EReal)
    (hq : ∀ e, ∃ r : ℝ, qrow e = (r : EReal)) (hkp : ∀ k e, ∃ r : ℝ, kp k e = (r : EReal))
    (hka : ∀ j e, ∃ r : ℝ, ka j e = (r : EReal)) :
    coreInner qrow kp ka mk vp va = coreOuter qrow kp ka mk vp va := by
  choose q' hq' using hq
  choose kp' hkp' using hkp
  choose ka' hka' using hka
  have hp : priorInner qrow kp mk = priorOuter qrow kp mk := by
    funext k
    unfold priorInner priorOuter
    congr 1
    simp only [hq', hkp', scale_eq]
    exact dot_scale q' (kp' k) _
  have ha : activeInner qrow ka = activeOuter qrow ka := by
    funext j
    unfold activeInner activeOuter
    simp only [hq', hka', scale_eq]
    exact dot_scale q' (ka' j) _
  unfold coreInner coreOuter
  rw [hp, ha]
  refine rowOutRecip_eq_rowOut vp va lo_ne_top (fun k => ?_) (fun j => ?_) (0 : Fin 16)
  · unfold priorOuter
    refine select_ne_top _ ?_ fill_ne_top
    simp only [hq', hkp', scale_eq]
    rw [dot_coe, ← EReal.coe_mul]; exact EReal.coe_ne_top _
  · unfold activeOuter
    simp only [hq', hka', scale_eq]
    rw [dot_coe, ← EReal.coe_mul]; exact ⟨_, rfl⟩

/-! ## The whole result array -/

/-- Queries, active keys, active values and the result: batch 8 × heads 16 × rows 16 × width 256. -/
abbrev ShQ : Shape := ⟨4, ![8, 16, 16, 256]⟩
/-- Prior keys and values: batch 8 × heads 16 × positions 4096 × width 256. -/
abbrev ShP : Shape := ⟨4, ![8, 16, 4096, 256]⟩
/-- The mask of prior positions, shared by the heads: batch 8 × 1 × rows 16 × positions 4096. -/
abbrev ShM : Shape := ⟨4, ![8, 1, 16, 4096]⟩

/-- The result array in the reference's arrangement: element (b, h, r, d) is row r of head (b, h) against value column d. -/
def attnOuter (Q : ShQ.Idx → EReal) (Kp Vp : ShP.Idx → EReal) (Ka Va : ShQ.Idx → EReal) (mask : ShM.Idx → BitVec 1) :
    ShQ.Idx → EReal := fun i =>
  coreOuter (fun e => Q (ix4 (i 0) (i 1) (i 2) e)) (fun k e => Kp (ix4 (i 0) (i 1) k e)) (fun j e => Ka (ix4 (i 0) (i 1) j e))
    (fun k => mask (ix4 (i 0) 0 (i 2) k)) (fun k => Vp (ix4 (i 0) (i 1) k (i 3))) (fun j => Va (ix4 (i 0) (i 1) j (i 3)))

/-- The result array in the kernel's arrangement. -/
def attnInner (Q : ShQ.Idx → EReal) (Kp Vp : ShP.Idx → EReal) (Ka Va : ShQ.Idx → EReal) (mask : ShM.Idx → BitVec 1) :
    ShQ.Idx → EReal := fun i =>
  coreInner (fun e => Q (ix4 (i 0) (i 1) (i 2) e)) (fun k e => Kp (ix4 (i 0) (i 1) k e)) (fun j e => Ka (ix4 (i 0) (i 1) j e))
    (fun k => mask (ix4 (i 0) 0 (i 2) k)) (fun k => Vp (ix4 (i 0) (i 1) k (i 3))) (fun j => Va (ix4 (i 0) (i 1) j (i 3)))

/-- With real queries and keys the two arrays are one. -/
theorem attnInner_eq_attnOuter (Q : ShQ.Idx → EReal) (Kp Vp : ShP.Idx → EReal) (Ka Va : ShQ.Idx → EReal)
    (mask : ShM.Idx → BitVec 1) (hQ : ∀ i, ∃ r : ℝ, Q i = (r : EReal)) (hKp : ∀ i, ∃ r : ℝ, Kp i = (r : EReal))
    (hKa : ∀ i, ∃ r : ℝ, Ka i = (r : EReal)) :
    attnInner Q Kp Vp Ka Va mask = attnOuter Q Kp Vp Ka Va mask :=
  funext fun _ => coreInner_eq_coreOuter _ _ _ _ _ _ (fun _ => hQ _) (fun _ _ => hKp _) (fun _ _ => hKa _)

end Cert.Attn

end
-- ==== Proof.HeadBody.lean ====
/-
  What the kernel computes for ONE head, as one function of that head's six blocks, and its value at an index.

  The kernel handles two heads per grid point with the same sequence of vector operations, printed twice and cut into
  payload definitions at different places. `headBody` is that sequence written once: scale the queries, the two score
  products, the mask, the joint row maximum, the exponentials, the normalizer, its reciprocal, the weights, the two
  output products and their sum. Both heads' payloads are `headBody` of their blocks by unfolding definitions.

  At the ideal instance, `headBody` at row r and column d is `Cert.Attn.coreInner` of the query row r, the key rows, the
  mask row r and the value columns d: each stage is read at an index (a narrowing of the float format is the identity,
  a lane maximum is a fold of `max`, a lane sum a finite sum, a product into a zero block a dot product).
-/
import proofs.«424415_j7069516169836_3_alg».proof.Proof.Gen.KernelIdeal.Skeleton
import proofs.«424415_j7069516169836_3_alg».proof.Proof.KDots
import proofs.«424415_j7069516169836_3_alg».proof.Proof.Spec
import Idealize.ShloMosaic.Lib.Pipeline.Value
import Idealize.ShloMosaic.Lib.IdealHost

noncomputable section

namespace Cert.KernelIdeal.Head

open Cert.KernelIdeal Cert.KernelIdeal.Gen Idealize.ShloMosaic Idealize.ShloMosaic.ValueIdx Cert.Attn
open scoped BigOperators

/-! ## Layout operations read at coordinates -/

section Layout
variable {α : Type}

/-- A length-a vector cast to an [a,1] column reads, at (i, 0), the vector at i. -/
theorem col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An [a,1] column broadcast along its rows to [a,b] reads, at (p, c), the column at (p, 0). -/
theorem bcol_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; rw [if_neg ha]
  | ⟨1, _⟩ => rfl

/-- A [1,1,a,b] block cast to [a,b] reads, at (i, j), the block at (0, 0, i, j). -/
theorem squeeze_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a,b] array cast to [1,1,a,b] reads, at (0, 0, i, j), the array at (i, j). -/
theorem unsqueeze_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.zero_mul, Nat.zero_add])

end Layout

/-! ## One head's computation, stage by stage -/

section Body
variable {F : FTy → Type} [FloatOps F]

/-- The query block scaled by 1/16 and narrowed. -/
def scaledQ (q : FVec F S16x256 .f32) : FVec F S16x256 .bf16 :=
  truncf .bf16 (mulf q (broadcast S16x256 (Scalar.ofBits .f32 0x3D800000#32))) bitsLt_bf16_f32

/-- The masked prior scores: the scaled queries against the prior keys, the fill value where the mask is clear. -/
def scoresP (q : FVec F S16x256 .f32) (kp : FVec F S4096x256 .f32) (mk : IVec S16x4096 1) : FVec F S16x4096 .f32 :=
  select mk (matmul dot_S16x256_S4096x256_S16x4096_1_1_0_0_n_n none (scaledQ q) (truncf .bf16 kp bitsLt_bf16_f32)
    (constant S16x4096 .f32 0x00000000#32)) (broadcast S16x4096 (Scalar.ofBits .f32 0xFF7FFFFF#32))

/-- The active scores: the scaled queries against the active keys. -/
def scoresA (q : FVec F S16x256 .f32) (ka : FVec F S16x256 .f32) : FVec F S16x16 .f32 :=
  matmul dot_S16x256_S16x256_S16x16_1_1_0_0_n_n none (scaledQ q) (truncf .bf16 ka bitsLt_bf16_f32)
    (constant S16x16 .f32 0x00000000#32)

/-- The joint row maximum, as a column. -/
def rowMaxV (sP : FVec F S16x4096 .f32) (sA : FVec F S16x16 .f32) : FVec F S16x1 .f32 :=
  maximumf
    (shapeCast S16x1 (multiReduction .maximumf [1] S16 sP 0xFF800000#32 reduces_S16x4096_S16 (.inl rfl) rfl) shapeCasts_S16_S16x1)
    (shapeCast S16x1 (multiReduction .maximumf [1] S16 sA 0xFF800000#32 reduces_S16x16_S16 (.inl rfl) rfl) shapeCasts_S16_S16x1)

/-- The exponentials of the prior scores shifted by the row maximum. -/
def expP (sP : FVec F S16x4096 .f32) (mx : FVec F S16x1 .f32) : FVec F S16x4096 .f32 :=
  exp (subf sP (broadcastTo S16x4096 mx broadcasts_S16x1_S16x4096))

/-- The exponentials of the active scores shifted by the row maximum. -/
def expA (sA : FVec F S16x16 .f32) (mx : FVec F S16x1 .f32) : FVec F S16x16 .f32 :=
  exp (subf sA (broadcastTo S16x16 mx broadcasts_S16x1_S16x16))

/-- The reciprocal of the normalizer (the sum of both rows of exponentials), as a column. -/
def invDen (eP : FVec F S16x4096 .f32) (eA : FVec F S16x16 .f32) : FVec F S16x1 .f32 :=
  divf (broadcast S16x1 (Scalar.ofBits .f32 0x3F800000#32))
    (addf
      (shapeCast S16x1 (multiReduction .add [1] S16 eP 0x00000000#32 reduces_S16x4096_S16 (.inl rfl) rfl) shapeCasts_S16_S16x1)
      (shapeCast S16x1 (multiReduction .add [1] S16 eA 0x00000000#32 reduces_S16x16_S16 (.inl rfl) rfl) shapeCasts_S16_S16x1))

/-- The weighted values: both rows of weights against their values, summed. -/
def weighted (eP : FVec F S16x4096 .f32) (eA : FVec F S16x16 .f32) (inv : FVec F S16x1 .f32)
    (vp : FVec F S4096x256 .f32) (va : FVec F S16x256 .f32) : FVec F S16x256 .f32 :=
  addf
    (matmul dot_S16x4096_S4096x256_S16x256_1_0_0_1_n_n none
      (truncf .bf16 (mulf eP (broadcastTo S16x4096 inv broadcasts_S16x1_S16x4096)) bitsLt_bf16_f32)
      (truncf .bf16 vp bitsLt_bf16_f32) (constant S16x256 .f32 0x00000000#32))
    (matmul dot_S16x16_S16x256_S16x256_1_0_0_1_n_n none
      (truncf .bf16 (mulf eA (broadcastTo S16x16 inv broadcasts_S16x1_S16x16)) bitsLt_bf16_f32)
      (truncf .bf16 va bitsLt_bf16_f32) (constant S16x256 .f32 0x00000000#32))

/-- One head: from its query, prior key, prior value, active key, active value blocks and its mask block. -/
def headBody (q : FVec F S16x256 .f32) (kp vp : FVec F S4096x256 .f32) (ka va : FVec F S16x256 .f32)
    (mk : IVec S16x4096 1) : FVec F S16x256 .f32 :=
  weighted (expP (scoresP q kp mk) (rowMaxV (scoresP q kp mk) (scoresA q ka)))
    (expA (scoresA q ka) (rowMaxV (scoresP q kp mk) (scoresA q ka)))
    (invDen (expP (scoresP q kp mk) (rowMaxV (scoresP q kp mk) (scoresA q ka)))
      (expA (scoresA q ka) (rowMaxV (scoresP q kp mk) (scoresA q ka))))
    vp va

/-- The mask block as one-bit words: the staged 32-bit words compared with zero. -/
def maskBits (x : Vec F S1x1x16x4096 .i32) : IVec S16x4096 1 :=
  cmpi .ne (shapeCast S16x4096 x shapeCasts_S1x1x16x4096_S16x4096) (constantI S16x4096 32 0#32)

/-- The first head's stored payload is `headBody` of the blocks it loads. -/
theorem pay_first (v0 : Vec F S1x1x16x4096 .i32) (v3 : Vec F S1x1x16x256 .f32) (v8 v11 : Vec F S1x1x4096x256 .f32)
    (v14 v17 : Vec F S1x1x16x256 .f32) :
    k0_pay10 (k0_pay4 v11) (k0_pay5 v17) (k0_pay6 v0 v3 v8) (k0_pay7 v3 v14) (k0_pay8 v0 v3 v8) (k0_pay9 v3 v14)
      = shapeCast S1x1x16x256
          (headBody (shapeCast S16x256 v3 shapeCasts_S1x1x16x256_S16x256) (shapeCast S4096x256 v8 shapeCasts_S1x1x4096x256_S4096x256)
            (shapeCast S4096x256 v11 shapeCasts_S1x1x4096x256_S4096x256) (shapeCast S16x256 v14 shapeCasts_S1x1x16x256_S16x256)
            (shapeCast S16x256 v17 shapeCasts_S1x1x16x256_S16x256) (maskBits v0))
          shapeCasts_S16x256_S1x1x16x256 := rfl

/-- The second head's stored payload is `headBody` of the blocks it loads. -/
theorem pay_second (v0 : Vec F S1x1x16x4096 .i32) (v54 : Vec F S1x1x16x256 .f32) (v59 v62 : Vec F S1x1x4096x256 .f32)
    (v65 v68 : Vec F S1x1x16x256 .f32) :
    k0_pay1 (k0_pay14 (k0_pay2 v0) (k0_pay11 v54) (k0_pay12 v59) (k0_pay13 v62) v65 v68)
      = shapeCast S1x1x16x256
          (headBody (shapeCast S16x256 v54 shapeCasts_S1x1x16x256_S16x256) (shapeCast S4096x256 v59 shapeCasts_S1x1x4096x256_S4096x256)
            (shapeCast S4096x256 v62 shapeCasts_S1x1x4096x256_S4096x256) (shapeCast S16x256 v65 shapeCasts_S1x1x16x256_S16x256)
            (shapeCast S16x256 v68 shapeCasts_S1x1x16x256_S16x256) (maskBits v0))
          shapeCasts_S16x256_S1x1x16x256 := rfl

end Body

/-! ## Each stage at an index, at the ideal instance -/

section AtIdeal

/-- Row r of a [16,4096] array with coordinate k inserted on the reduced axis is the index (r, k). -/
theorem liftP (r : Fin 16) (k : Fin 4096) : reduces_S16x4096_S16.lift (ix1 r) k = ix2 r k :=
  funext fun c => Fin.ext (by match c with | ⟨0, _⟩ => rfl | ⟨1, _⟩ => rfl)

/-- The same for a [16,16] array. -/
theorem liftA (r : Fin 16) (j : Fin 16) : reduces_S16x16_S16.lift (ix1 r) j = ix2 r j :=
  funext fun c => Fin.ext (by match c with | ⟨0, _⟩ => rfl | ⟨1, _⟩ => rfl)

/-- A lane maximum of a [16,4096] array at row r: the fold of `max` from `-∞` over the row. -/
theorem maxP (sP : FVec Ideal S16x4096 .f32) (r : Fin 16) :
    multiReduction .maximumf [1] S16 sP 0xFF800000#32 reduces_S16x4096_S16 (.inl rfl) rfl (ix1 r)
      = (Finset.univ : Finset (Fin 4096)).fold max lo (fun k => sP (ix2 r k)) :=
  (Ideal.multiReduction_maximumf_single sP _ reduces_S16x4096_S16 _ _ (ix1 r)).trans
    (congrArg (fun f : Fin 4096 → EReal => (Finset.univ : Finset (Fin 4096)).fold max lo f)
      (funext fun k => congrArg sP (liftP r k)))

/-- A lane maximum of a [16,16] array at row r. -/
theorem maxA (sA : FVec Ideal S16x16 .f32) (r : Fin 16) :
    multiReduction .maximumf [1] S16 sA 0xFF800000#32 reduces_S16x16_S16 (.inl rfl) rfl (ix1 r)
      = (Finset.univ : Finset (Fin 16)).fold max lo (fun j => sA (ix2 r j)) :=
  (Ideal.multiReduction_maximumf_single sA _ reduces_S16x16_S16 _ _ (ix1 r)).trans
    (congrArg (fun f : Fin 16 → EReal => (Finset.univ : Finset (Fin 16)).fold max lo f)
      (funext fun j => congrArg sA (liftA r j)))

/-- A lane sum of a [16,4096] array at row r: the sum over the row. -/
theorem sumP (eP : FVec Ideal S16x4096 .f32) (r : Fin 16) :
    multiReduction .add [1] S16 eP 0x00000000#32 reduces_S16x4096_S16 (.inl rfl) rfl (ix1 r)
      = ∑ k : Fin 4096, eP (ix2 r k) :=
  (Ideal.multiReduction_add_single eP _ reduces_S16x4096_S16 _ _ (ix1 r)).trans
    (Finset.sum_congr rfl fun k _ => congrArg eP (liftP r k))

/-- A lane sum of a [16,16] array at row r. -/
theorem sumA (eA : FVec Ideal S16x16 .f32) (r : Fin 16) :
    multiReduction .add [1] S16 eA 0x00000000#32 reduces_S16x16_S16 (.inl rfl) rfl (ix1 r)
      = ∑ j : Fin 16, eA (ix2 r j) :=
  (Ideal.multiReduction_add_single eA _ reduces_S16x16_S16 _ _ (ix1 r)).trans
    (Finset.sum_congr rfl fun j _ => congrArg eA (liftA r j))

/-- The masked prior score at (r, k), in the kernel's arrangement. -/
theorem scoresP_apply (q : FVec Ideal S16x256 .f32) (kp : FVec Ideal S4096x256 .f32) (mk : IVec S16x4096 1)
    (r : Fin 16) (k : Fin 4096) :
    scoresP (F := Ideal) q kp mk (ix2 r k)
      = priorInner (fun e => q (ix2 r e)) (fun k e => kp (ix2 k e)) (fun k => mk (ix2 r k)) k := by
  unfold scoresP priorInner
  rw [select_apply, sp_apply]
  rfl

/-- The active score at (r, j), in the kernel's arrangement. -/
theorem scoresA_apply (q : FVec Ideal S16x256 .f32) (ka : FVec Ideal S16x256 .f32) (r : Fin 16) (j : Fin 16) :
    scoresA (F := Ideal) q ka (ix2 r j) = activeInner (fun e => q (ix2 r e)) (fun j e => ka (ix2 j e)) j := by
  unfold scoresA activeInner
  rw [sa_apply]
  rfl

/-- The joint row maximum at row r. -/
theorem rowMaxV_apply (sP : FVec Ideal S16x4096 .f32) (sA : FVec Ideal S16x16 .f32) (r : Fin 16) (u : Fin 1) :
    rowMaxV (F := Ideal) sP sA (ix2 r u) = rowMax lo (fun k : Fin 4096 => sP (ix2 r k)) (fun j : Fin 16 => sA (ix2 r j)) := by
  unfold rowMaxV rowMax
  rw [maximumf_apply, col_apply, col_apply, maxP, maxA]

/-- A prior exponential at (r, k). -/
theorem expP_apply (sP : FVec Ideal S16x4096 .f32) (mx : FVec Ideal S16x1 .f32) (r : Fin 16) (k : Fin 4096) :
    expP (F := Ideal) sP mx (ix2 r k) = Ideal.exp (sP (ix2 r k) - mx (ix2 r (0 : Fin 1))) := by
  show Ideal.exp (sP (ix2 r k) - broadcastTo S16x4096 mx broadcasts_S16x1_S16x4096 (ix2 r k)) = _
  rw [bcol_apply (by decide)]

/-- An active exponential at (r, j). -/
theorem expA_apply (sA : FVec Ideal S16x16 .f32) (mx : FVec Ideal S16x1 .f32) (r : Fin 16) (j : Fin 16) :
    expA (F := Ideal) sA mx (ix2 r j) = Ideal.exp (sA (ix2 r j) - mx (ix2 r (0 : Fin 1))) := by
  show Ideal.exp (sA (ix2 r j) - broadcastTo S16x16 mx broadcasts_S16x1_S16x16 (ix2 r j)) = _
  rw [bcol_apply (by decide)]

/-- The reciprocal of the normalizer at row r. -/
theorem invDen_apply (eP : FVec Ideal S16x4096 .f32) (eA : FVec Ideal S16x16 .f32) (r : Fin 16) (u : Fin 1) :
    invDen (F := Ideal) eP eA (ix2 r u)
      = Ideal.div 1 ((∑ k : Fin 4096, eP (ix2 r k)) + ∑ j : Fin 16, eA (ix2 r j)) := by
  unfold invDen
  rw [divf_apply, addf_apply, col_apply, col_apply, sumP, sumA]
  show Ideal.div (Ideal.ofBits .f32 0x3F800000#32) _ = _
  rw [Ideal.ofBits_one_f32]

/-- The weighted values at (r, d). -/
theorem weighted_apply (eP : FVec Ideal S16x4096 .f32) (eA : FVec Ideal S16x16 .f32) (inv : FVec Ideal S16x1 .f32)
    (vp : FVec Ideal S4096x256 .f32) (va : FVec Ideal S16x256 .f32) (r : Fin 16) (d : Fin 256) :
    weighted (F := Ideal) eP eA inv vp va (ix2 r d)
      = (∑ k : Fin 4096, (eP (ix2 r k) * inv (ix2 r (0 : Fin 1))) * vp (ix2 k d))
        + ∑ j : Fin 16, (eA (ix2 r j) * inv (ix2 r (0 : Fin 1))) * va (ix2 j d) := by
  unfold weighted
  rw [addf_apply, op_apply, oa_apply]
  congr 1
  · refine Finset.sum_congr rfl fun k _ => ?_
    show (eP (ix2 r k) * broadcastTo S16x4096 inv broadcasts_S16x1_S16x4096 (ix2 r k)) * vp (ix2 k d) = _
    rw [bcol_apply (by decide)]
  · refine Finset.sum_congr rfl fun j _ => ?_
    show (eA (ix2 r j) * broadcastTo S16x16 inv broadcasts_S16x1_S16x16 (ix2 r j)) * va (ix2 j d) = _
    rw [bcol_apply (by decide)]

/-- ONE HEAD AT AN INDEX: row r, column d of `headBody` is the kernel's arrangement of joint softmax attention for
    query row r, all key rows, mask row r and value column d. -/
theorem headBody_apply (q : FVec Ideal S16x256 .f32) (kp vp : FVec Ideal S4096x256 .f32) (ka va : FVec Ideal S16x256 .f32)
    (mk : IVec S16x4096 1) (r : Fin 16) (d : Fin 256) :
    headBody (F := Ideal) q kp vp ka va mk (ix2 r d)
      = coreInner (fun e => q (ix2 r e)) (fun k e => kp (ix2 k e)) (fun j e => ka (ix2 j e)) (fun k => mk (ix2 r k))
          (fun k => vp (ix2 k d)) (fun j => va (ix2 j d)) := by
  unfold headBody coreInner rowOutRecip rowDen
  rw [weighted_apply]
  simp only [expP_apply, expA_apply, invDen_apply, rowMaxV_apply, scoresP_apply, scoresA_apply]

end AtIdeal

end Cert.KernelIdeal.Head

end
-- ==== Proof.KernelValue.lean ====
/-
  What the kernel's result array holds after the run.

  The grid has 8 × 8 points; point (b, p) handles batch b and the head pair (2p, 2p+1). Its output block, of shape
  [1, 2, 16, 256], is two stores: head 2p into rows (0, 0, ·, ·) and head 2p+1 into rows (0, 1, ·, ·), each the head
  body of that head's slices of the input blocks. So at block index (0, l, r, d) the block holds the kernel's
  arrangement of attention for the query row r of head l of the block (`blockOut`).

  Every window but the mask's moves with the output: its block at point (b, p) starts at (b, 2p, 0, 0). The mask's
  block starts at (b, 0, 0, 0): one mask for all heads of a batch. Reading each input block through its window at
  the embedded index turns `blockOut` into the whole-array function `Cert.Attn.attnInner` of the arrays the region
  finds, at the array index the output window embeds the block index to. The 64 blocks tile the array, so the array
  ends as that function everywhere. The mask reaches the kernel widened from one bit to 32 by a host operation, and
  the kernel tests it against zero: that round trip is the identity on a bit.
-/
import proofs.«424415_j7069516169836_3_alg».proof.Proof.Gen.KernelIdeal.Value
import proofs.«424415_j7069516169836_3_alg».proof.Proof.HeadBody
import Idealize.ShloMosaic.Lib.StableHlo.Run

set_option maxRecDepth 16384

noncomputable section

namespace Cert.KernelIdeal.AttnValue

open Cert.KernelIdeal Cert.KernelIdeal.Gen Cert.KernelIdeal.Head Idealize.ShloMosaic Idealize.ShloMosaic.TcCoe Idealize.SL.Sem
open Idealize.ShloMosaic.ValueIdx Cert.Attn
open Idealize.ShloMosaic.Pipeline (Dat)

/-! ## The block one grid point writes -/

/-- The output block as a function of the six input blocks: at (0, l, r, d), attention for row r of the block's head l,
    column d, in the kernel's arrangement; the mask bit is "the staged word is not zero". -/
def blockOut (x0 : Vec Ideal S1x2x16x256 .f32) (x1 x2 : Vec Ideal S1x2x4096x256 .f32) (x3 x4 : Vec Ideal S1x2x16x256 .f32)
    (x5 : Vec Ideal S1x1x16x4096 .i32) : S1x2x16x256.Idx → EReal := fun y =>
  coreInner (fun e => x0 (ix4 (0 : Fin 1) (y 1) (y 2) e)) (fun k e => x1 (ix4 (0 : Fin 1) (y 1) k e))
    (fun j e => x3 (ix4 (0 : Fin 1) (y 1) j e)) (fun k => IntOp.cmpi .ne (x5 (ix4 (0 : Fin 1) (0 : Fin 1) (y 2) k)) 0#32)
    (fun k => x2 (ix4 (0 : Fin 1) (y 1) k (y 3))) (fun j => x4 (ix4 (0 : Fin 1) (y 1) j (y 3)))

/-! ### The body's rectangles at coordinates -/

theorem idx_r0_0 (r : Fin 16) (k : Fin 4096) :
    r0_0.idx (ix4 (0 : Fin 1) (0 : Fin 1) r k) = ix4 (0 : Fin 1) (0 : Fin 1) r k :=
  funext fun a => Fin.ext (by
    match a with
    | ⟨0, _⟩ => rfl
    | ⟨1, _⟩ => rfl
    | ⟨2, _⟩ => show 0 + 1 * r.val = r.val; omega
    | ⟨3, _⟩ => show 0 + 1 * k.val = k.val; omega)

theorem idx_r0_1 (r : Fin 16) (e : Fin 256) :
    r0_1.idx (ix4 (0 : Fin 1) (0 : Fin 1) r e) = ix4 (0 : Fin 1) (0 : Fin 2) r e :=
  funext fun a => Fin.ext (by
    match a with
    | ⟨0, _⟩ => rfl
    | ⟨1, _⟩ => rfl
    | ⟨2, _⟩ => show 0 + 1 * r.val = r.val; omega
    | ⟨3, _⟩ => show 0 + 1 * e.val = e.val; omega)

theorem idx_r0_3 (r : Fin 16) (e : Fin 256) :
    r0_3.idx (ix4 (0 : Fin 1) (0 : Fin 1) r e) = ix4 (0 : Fin 1) (1 : Fin 2) r e :=
  funext fun a => Fin.ext (by
    match a with
    | ⟨0, _⟩ => rfl
    | ⟨1, _⟩ => rfl
    | ⟨2, _⟩ => show 0 + 1 * r.val = r.val; omega
    | ⟨3, _⟩ => show 0 + 1 * e.val = e.val; omega)

theorem idx_r0_2 (k : Fin 4096) (e : Fin 256) :
    r0_2.idx (ix4 (0 : Fin 1) (0 : Fin 1) k e) = ix4 (0 : Fin 1) (0 : Fin 2) k e :=
  funext fun a => Fin.ext (by
    match a with
    | ⟨0, _⟩ => rfl
    | ⟨1, _⟩ => rfl
    | ⟨2, _⟩ => show 0 + 1 * k.val = k.val; omega
    | ⟨3, _⟩ => show 0 + 1 * e.val = e.val; omega)

theorem idx_r0_4 (k : Fin 4096) (e : Fin 256) :
    r0_4.idx (ix4 (0 : Fin 1) (0 : Fin 1) k e) = ix4 (0 : Fin 1) (1 : Fin 2) k e :=
  funext fun a => Fin.ext (by
    match a with
    | ⟨0, _⟩ => rfl
    | ⟨1, _⟩ => rfl
    | ⟨2, _⟩ => show 0 + 1 * k.val = k.val; omega
    | ⟨3, _⟩ => show 0 + 1 * e.val = e.val; omega)

/-- The mask block's bits at (r, k). -/
theorem maskBits_apply (x5 : Vec Ideal S1x1x16x4096 .i32) (r : Fin 16) (k : Fin 4096) :
    maskBits (F := Ideal) (View.ld x5 r0_0) (ix2 r k) = IntOp.cmpi .ne (x5 (ix4 (0 : Fin 1) (0 : Fin 1) r k)) 0#32 := by
  show IntOp.cmpi .ne (shapeCast S16x4096 (View.ld x5 r0_0) shapeCasts_S1x1x16x4096_S16x4096 (ix2 r k)) 0#32 = _
  rw [squeeze_apply]
  exact congrArg (fun z => IntOp.cmpi .ne (x5 z) 0#32) (idx_r0_0 r k)

/-- The first store's payload at a local index is `blockOut` at the index its rectangle embeds it to. -/
theorem piece_first (x0 : Vec Ideal S1x2x16x256 .f32) (x1 x2 : Vec Ideal S1x2x4096x256 .f32) (x3 x4 : Vec Ideal S1x2x16x256 .f32)
    (x5 : Vec Ideal S1x1x16x4096 .i32) (x : S1x1x16x256.Idx) :
    shapeCast S1x1x16x256
        (headBody (F := Ideal) (shapeCast S16x256 (View.ld x0 r0_1) shapeCasts_S1x1x16x256_S16x256)
          (shapeCast S4096x256 (View.ld x1 r0_2) shapeCasts_S1x1x4096x256_S4096x256)
          (shapeCast S4096x256 (View.ld x2 r0_2) shapeCasts_S1x1x4096x256_S4096x256)
          (shapeCast S16x256 (View.ld x3 r0_1) shapeCasts_S1x1x16x256_S16x256)
          (shapeCast S16x256 (View.ld x4 r0_1) shapeCasts_S1x1x16x256_S16x256) (maskBits (View.ld x5 r0_0)))
        shapeCasts_S16x256_S1x1x16x256 x
      = blockOut x0 x1 x2 x3 x4 x5 (r0_1.emb x) := by
  obtain ⟨u, v, r, d, rfl⟩ : ∃ (u v : Fin 1) (r : Fin 16) (d : Fin 256), x = ix4 u v r d := ⟨x 0, x 1, x 2, x 3, eq_ix4 x⟩
  have he : r0_1.emb (ix4 u v r d) = ix4 (0 : Fin 1) (0 : Fin 2) r d :=
    funext fun a => Fin.ext (by
      match a with
      | ⟨0, _⟩ => show 0 + 1 * u.val = 0; omega
      | ⟨1, _⟩ => show 0 + 1 * v.val = 0; omega
      | ⟨2, _⟩ => show 0 + 1 * r.val = r.val; omega
      | ⟨3, _⟩ => show 0 + 1 * d.val = d.val; omega)
  rw [he, unsqueeze_apply, headBody_apply]
  show _ = coreInner (fun e => x0 (ix4 (0 : Fin 1) (0 : Fin 2) r e)) (fun k e => x1 (ix4 (0 : Fin 1) (0 : Fin 2) k e))
    (fun j e => x3 (ix4 (0 : Fin 1) (0 : Fin 2) j e)) (fun k => IntOp.cmpi .ne (x5 (ix4 (0 : Fin 1) (0 : Fin 1) r k)) 0#32)
    (fun k => x2 (ix4 (0 : Fin 1) (0 : Fin 2) k d)) (fun j => x4 (ix4 (0 : Fin 1) (0 : Fin 2) j d))
  simp only [squeeze_apply, maskBits_apply]
  simp only [View.ld, idx_r0_1, idx_r0_2]

/-- The second store's payload at a local index is `blockOut` at the index its rectangle embeds it to. -/
theorem piece_second (x0 : Vec Ideal S1x2x16x256 .f32) (x1 x2 : Vec Ideal S1x2x4096x256 .f32) (x3 x4 : Vec Ideal S1x2x16x256 .f32)
    (x5 : Vec Ideal S1x1x16x4096 .i32) (x : S1x1x16x256.Idx) :
    shapeCast S1x1x16x256
        (headBody (F := Ideal) (shapeCast S16x256 (View.ld x0 r0_3) shapeCasts_S1x1x16x256_S16x256)
          (shapeCast S4096x256 (View.ld x1 r0_4) shapeCasts_S1x1x4096x256_S4096x256)
          (shapeCast S4096x256 (View.ld x2 r0_4) shapeCasts_S1x1x4096x256_S4096x256)
          (shapeCast S16x256 (View.ld x3 r0_3) shapeCasts_S1x1x16x256_S16x256)
          (shapeCast S16x256 (View.ld x4 r0_3) shapeCasts_S1x1x16x256_S16x256) (maskBits (View.ld x5 r0_0)))
        shapeCasts_S16x256_S1x1x16x256 x
      = blockOut x0 x1 x2 x3 x4 x5 (r0_3.emb x) := by
  obtain ⟨u, v, r, d, rfl⟩ : ∃ (u v : Fin 1) (r : Fin 16) (d : Fin 256), x = ix4 u v r d := ⟨x 0, x 1, x 2, x 3, eq_ix4 x⟩
  have he : r0_3.emb (ix4 u v r d) = ix4 (0 : Fin 1) (1 : Fin 2) r d :=
    funext fun a => Fin.ext (by
      match a with
      | ⟨0, _⟩ => show 0 + 1 * u.val = 0; omega
      | ⟨1, _⟩ => show 1 + 1 * v.val = 1; omega
      | ⟨2, _⟩ => show 0 + 1 * r.val = r.val; omega
      | ⟨3, _⟩ => show 0 + 1 * d.val = d.val; omega)
  rw [he, unsqueeze_apply, headBody_apply]
  show _ = coreInner (fun e => x0 (ix4 (0 : Fin 1) (1 : Fin 2) r e)) (fun k e => x1 (ix4 (0 : Fin 1) (1 : Fin 2) k e))
    (fun j e => x3 (ix4 (0 : Fin 1) (1 : Fin 2) j e)) (fun k => IntOp.cmpi .ne (x5 (ix4 (0 : Fin 1) (0 : Fin 1) r k)) 0#32)
    (fun k => x2 (ix4 (0 : Fin 1) (1 : Fin 2) k d)) (fun j => x4 (ix4 (0 : Fin 1) (1 : Fin 2) j d))
  simp only [squeeze_apply, maskBits_apply]
  simp only [View.ld, idx_r0_3, idx_r0_4]

/-- What the body leaves in the output block: both heads, each where its store put it. -/
theorem out0_6_eq (x0 : Vec Ideal S1x2x16x256 .f32) (x1 x2 : Vec Ideal S1x2x4096x256 .f32) (x3 x4 : Vec Ideal S1x2x16x256 .f32)
    (x5 : Vec Ideal S1x1x16x4096 .i32) : out0_6 (F := Ideal) x0 x1 x2 x3 x4 x5 = blockOut x0 x1 x2 x3 x4 x5 := by
  funext y
  unfold out0_6
  rw [pay_first, pay_second]
  refine View.canon_apply_of_pieces (Val := Elt Ideal) (blockOut x0 x1 x2 x3 x4 x5) _ (fun p hp x => ?_) y (cover0_6 _ _ y)
  rcases List.mem_cons.mp hp with rfl | hp
  · exact piece_second x0 x1 x2 x3 x4 x5 x
  · obtain rfl := List.mem_singleton.mp hp
    exact piece_first x0 x1 x2 x3 x4 x5 x

/-! ## Every window's block, read through its index map -/

section Run
variable (m : (ℓ : Loc nD τ sig) → Buf (Elt Ideal) ℓ) (ρ : Dev nD → PrngReg)

/-- The query window moves with the output window on the batch and head-pair axes and does not move on the others. -/
theorem idx0 : ∀ t : Fin cfg0.N, win0_0.index t (0 : Fin 4) = win0_6.index t (0 : Fin 4)
    ∧ win0_0.index t (1 : Fin 4) = win0_6.index t (1 : Fin 4) ∧ win0_0.index t (2 : Fin 4) = 0 ∧ win0_0.index t (3 : Fin 4) = 0 :=
  (by decide +kernel : ∀ t : Fin grid0.N, _)
/-- So does the prior-key window, -/
theorem idx1 : ∀ t : Fin cfg0.N, win0_1.index t (0 : Fin 4) = win0_6.index t (0 : Fin 4)
    ∧ win0_1.index t (1 : Fin 4) = win0_6.index t (1 : Fin 4) ∧ win0_1.index t (2 : Fin 4) = 0 ∧ win0_1.index t (3 : Fin 4) = 0 :=
  (by decide +kernel : ∀ t : Fin grid0.N, _)
/-- the prior-value window, -/
theorem idx2 : ∀ t : Fin cfg0.N, win0_2.index t (0 : Fin 4) = win0_6.index t (0 : Fin 4)
    ∧ win0_2.index t (1 : Fin 4) = win0_6.index t (1 : Fin 4) ∧ win0_2.index t (2 : Fin 4) = 0 ∧ win0_2.index t (3 : Fin 4) = 0 :=
  (by decide +kernel : ∀ t : Fin grid0.N, _)
/-- the active-key window -/
theorem idx3 : ∀ t : Fin cfg0.N, win0_3.index t (0 : Fin 4) = win0_6.index t (0 : Fin 4)
    ∧ win0_3.index t (1 : Fin 4) = win0_6.index t (1 : Fin 4) ∧ win0_3.index t (2 : Fin 4) = 0 ∧ win0_3.index t (3 : Fin 4) = 0 :=
  (by decide +kernel : ∀ t : Fin grid0.N, _)
/-- and the active-value window. -/
theorem idx4 : ∀ t : Fin cfg0.N, win0_4.index t (0 : Fin 4) = win0_6.index t (0 : Fin 4)
    ∧ win0_4.index t (1 : Fin 4) = win0_6.index t (1 : Fin 4) ∧ win0_4.index t (2 : Fin 4) = 0 ∧ win0_4.index t (3 : Fin 4) = 0 :=
  (by decide +kernel : ∀ t : Fin grid0.N, _)
/-- The mask window follows the batch axis only: one mask block for all head pairs of a batch. -/
theorem idx5 : ∀ t : Fin cfg0.N, win0_5.index t (0 : Fin 4) = win0_6.index t (0 : Fin 4)
    ∧ win0_5.index t (1 : Fin 4) = 0 ∧ win0_5.index t (2 : Fin 4) = 0 ∧ win0_5.index t (3 : Fin 4) = 0 :=
  (by decide +kernel : ∀ t : Fin grid0.N, _)
/-- The output window's block index: anything on the batch and head-pair axes, zero on the row and column axes. -/
theorem idx6 : ∀ t : Fin cfg0.N, win0_6.index t (2 : Fin 4) = 0 ∧ win0_6.index t (3 : Fin 4) = 0 :=
  (by decide +kernel : ∀ t : Fin grid0.N, _)
/-- Every (batch, head pair) is some grid point's block. -/
theorem idx_onto : ∀ (q0 : Fin 8) (q1 : Fin 8), ∃ t : Fin cfg0.N, win0_6.index t (0 : Fin 4) = q0.val ∧ win0_6.index t (1 : Fin 4) = q1.val :=
  (by decide +kernel : ∀ (q0 : Fin 8) (q1 : Fin 8), ∃ t : Fin grid0.N, _)

/-- The output block's row and column coordinates embed to themselves. -/
theorem emb6_row (t : Fin cfg0.N) (y : S1x2x16x256.Idx) : ((cfg0.win 6).blk t).view.emb y 2 = y 2 := by
  obtain ⟨g2, g3⟩ := idx6 t
  apply Fin.ext
  show win0_6.index t (2 : Fin 4) * 16 + 1 * (y 2).val = (y 2).val
  omega
theorem emb6_col (t : Fin cfg0.N) (y : S1x2x16x256.Idx) : ((cfg0.win 6).blk t).view.emb y 3 = y 3 := by
  obtain ⟨g2, g3⟩ := idx6 t
  apply Fin.ext
  show win0_6.index t (3 : Fin 4) * 256 + 1 * (y 3).val = (y 3).val
  omega

/-- The query block's entry (0, l, r, e) is the array's entry at the output's (batch, head) and (r, e). -/
theorem emb0 (t : Fin cfg0.N) (y : S1x2x16x256.Idx) (r : Fin 16) (e : Fin 256) :
    ((cfg0.win 0).blk t).view.emb (ix4 (0 : Fin 1) (y 1) r e)
      = ix4 (((cfg0.win 6).blk t).view.emb y 0) (((cfg0.win 6).blk t).view.emb y 1) r e := by
  obtain ⟨h0, h1, h2, h3⟩ := idx0 t
  have y0 : (y 0).val < 1 := (y 0).isLt
  funext a; apply Fin.ext
  match a with
  | ⟨0, _⟩ => show win0_0.index t (0 : Fin 4) * 1 + 1 * 0 = win0_6.index t (0 : Fin 4) * 1 + 1 * (y 0).val; omega
  | ⟨1, _⟩ => show win0_0.index t (1 : Fin 4) * 2 + 1 * (y 1).val = win0_6.index t (1 : Fin 4) * 2 + 1 * (y 1).val; omega
  | ⟨2, _⟩ => show win0_0.index t (2 : Fin 4) * 16 + 1 * r.val = r.val; omega
  | ⟨3, _⟩ => show win0_0.index t (3 : Fin 4) * 256 + 1 * e.val = e.val; omega

/-- The same for the prior-key block, -/
theorem emb1 (t : Fin cfg0.N) (y : S1x2x16x256.Idx) (k : Fin 4096) (e : Fin 256) :
    ((cfg0.win 1).blk t).view.emb (ix4 (0 : Fin 1) (y 1) k e)
      = ix4 (((cfg0.win 6).blk t).view.emb y 0) (((cfg0.win 6).blk t).view.emb y 1) k e := by
  obtain ⟨h0, h1, h2, h3⟩ := idx1 t
  have y0 : (y 0).val < 1 := (y 0).isLt
  funext a; apply Fin.ext
  match a with
  | ⟨0, _⟩ => show win0_1.index t (0 : Fin 4) * 1 + 1 * 0 = win0_6.index t (0 : Fin 4) * 1 + 1 * (y 0).val; omega
  | ⟨1, _⟩ => show win0_1.index t (1 : Fin 4) * 2 + 1 * (y 1).val = win0_6.index t (1 : Fin 4) * 2 + 1 * (y 1).val; omega
  | ⟨2, _⟩ => show win0_1.index t (2 : Fin 4) * 4096 + 1 * k.val = k.val; omega
  | ⟨3, _⟩ => show win0_1.index t (3 : Fin 4) * 256 + 1 * e.val = e.val; omega

/-- the prior-value block, -/
theorem emb2 (t : Fin cfg0.N) (y : S1x2x16x256.Idx) (k : Fin 4096) (e : Fin 256) :
    ((cfg0.win 2).blk t).view.emb (ix4 (0 : Fin 1) (y 1) k e)
      = ix4 (((cfg0.win 6).blk t).view.emb y 0) (((cfg0.win 6).blk t).view.emb y 1) k e := by
  obtain ⟨h0, h1, h2, h3⟩ := idx2 t
  have y0 : (y 0).val < 1 := (y 0).isLt
  funext a; apply Fin.ext
  match a with
  | ⟨0, _⟩ => show win0_2.index t (0 : Fin 4) * 1 + 1 * 0 = win0_6.index t (0 : Fin 4) * 1 + 1 * (y 0).val; omega
  | ⟨1, _⟩ => show win0_2.index t (1 : Fin 4) * 2 + 1 * (y 1).val = win0_6.index t (1 : Fin 4) * 2 + 1 * (y 1).val; omega
  | ⟨2, _⟩ => show win0_2.index t (2 : Fin 4) * 4096 + 1 * k.val = k.val; omega
  | ⟨3, _⟩ => show win0_2.index t (3 : Fin 4) * 256 + 1 * e.val = e.val; omega

/-- the active-key block -/
theorem emb3 (t : Fin cfg0.N) (y : S1x2x16x256.Idx) (r : Fin 16) (e : Fin 256) :
    ((cfg0.win 3).blk t).view.emb (ix4 (0 : Fin 1) (y 1) r e)
      = ix4 (((cfg0.win 6).blk t).view.emb y 0) (((cfg0.win 6).blk t).view.emb y 1) r e := by
  obtain ⟨h0, h1, h2, h3⟩ := idx3 t
  have y0 : (y 0).val < 1 := (y 0).isLt
  funext a; apply Fin.ext
  match a with
  | ⟨0, _⟩ => show win0_3.index t (0 : Fin 4) * 1 + 1 * 0 = win0_6.index t (0 : Fin 4) * 1 + 1 * (y 0).val; omega
  | ⟨1, _⟩ => show win0_3.index t (1 : Fin 4) * 2 + 1 * (y 1).val = win0_6.index t (1 : Fin 4) * 2 + 1 * (y 1).val; omega
  | ⟨2, _⟩ => show win0_3.index t (2 : Fin 4) * 16 + 1 * r.val = r.val; omega
  | ⟨3, _⟩ => show win0_3.index t (3 : Fin 4) * 256 + 1 * e.val = e.val; omega

/-- and the active-value block. -/
theorem emb4 (t : Fin cfg0.N) (y : S1x2x16x256.Idx) (r : Fin 16) (e : Fin 256) :
    ((cfg0.win 4).blk t).view.emb (ix4 (0 : Fin 1) (y 1) r e)
      = ix4 (((cfg0.win 6).blk t).view.emb y 0) (((cfg0.win 6).blk t).view.emb y 1) r e := by
  obtain ⟨h0, h1, h2, h3⟩ := idx4 t
  have y0 : (y 0).val < 1 := (y 0).isLt
  funext a; apply Fin.ext
  match a with
  | ⟨0, _⟩ => show win0_4.index t (0 : Fin 4) * 1 + 1 * 0 = win0_6.index t (0 : Fin 4) * 1 + 1 * (y 0).val; omega
  | ⟨1, _⟩ => show win0_4.index t (1 : Fin 4) * 2 + 1 * (y 1).val = win0_6.index t (1 : Fin 4) * 2 + 1 * (y 1).val; omega
  | ⟨2, _⟩ => show win0_4.index t (2 : Fin 4) * 16 + 1 * r.val = r.val; omega
  | ⟨3, _⟩ => show win0_4.index t (3 : Fin 4) * 256 + 1 * e.val = e.val; omega

/-- The mask block's entry (0, 0, r, k) is the mask array's entry at the output's batch and (0, r, k). -/
theorem emb5 (t : Fin cfg0.N) (y : S1x2x16x256.Idx) (r : Fin 16) (k : Fin 4096) :
    ((cfg0.win 5).blk t).view.emb (ix4 (0 : Fin 1) (0 : Fin 1) r k)
      = ix4 (((cfg0.win 6).blk t).view.emb y 0) (0 : Fin 1) r k := by
  obtain ⟨h0, h1, h2, h3⟩ := idx5 t
  have y0 : (y 0).val < 1 := (y 0).isLt
  funext a; apply Fin.ext
  match a with
  | ⟨0, _⟩ => show win0_5.index t (0 : Fin 4) * 1 + 1 * 0 = win0_6.index t (0 : Fin 4) * 1 + 1 * (y 0).val; omega
  | ⟨1, _⟩ => show win0_5.index t (1 : Fin 4) * 1 + 1 * 0 = 0; omega
  | ⟨2, _⟩ => show win0_5.index t (2 : Fin 4) * 16 + 1 * r.val = r.val; omega
  | ⟨3, _⟩ => show win0_5.index t (3 : Fin 4) * 4096 + 1 * k.val = k.val; omega

/-! ## The whole array -/

/-- The attention array, in the kernel's arrangement, of the arrays the region finds; the mask bit is "the widened word
    is not zero". -/
def arrG (c : Dev nD) : S8x16x16x256.Idx → EReal :=
  attnInner (V m c main_arg0) (V m c main_arg1) (V m c main_arg2) (V m c main_arg3) (V m c main_arg4)
    (fun i => IntOp.cmpi .ne ((V m c main_v0 : S8x1x16x4096.Idx → BitVec 32) i) 0#32)

/-- WHAT POINT t WRITES BACK is block t of that array. -/
theorem flushed_eq (c : Dev nD) (t : Fin cfg0.N) :
    (dats m 0 c).flushed 6 t = ((cfg0.win 6).blk t).view.read (Elt Ideal) (arrG m c) := by
  rw [Cert.KernelIdeal.Value.flushed6, out0_6_eq]
  funext y
  show coreInner
      (fun e => (V m c main_arg0 : S8x16x16x256.Idx → EReal) (((cfg0.win 0).blk t).view.emb (ix4 (0 : Fin 1) (y 1) (y 2) e)))
      (fun k e => (V m c main_arg1 : S8x16x4096x256.Idx → EReal) (((cfg0.win 1).blk t).view.emb (ix4 (0 : Fin 1) (y 1) k e)))
      (fun j e => (V m c main_arg3 : S8x16x16x256.Idx → EReal) (((cfg0.win 3).blk t).view.emb (ix4 (0 : Fin 1) (y 1) j e)))
      (fun k => IntOp.cmpi .ne ((V m c main_v0 : S8x1x16x4096.Idx → BitVec 32) (((cfg0.win 5).blk t).view.emb (ix4 (0 : Fin 1) (0 : Fin 1) (y 2) k))) 0#32)
      (fun k => (V m c main_arg2 : S8x16x4096x256.Idx → EReal) (((cfg0.win 2).blk t).view.emb (ix4 (0 : Fin 1) (y 1) k (y 3))))
      (fun j => (V m c main_arg4 : S8x16x16x256.Idx → EReal) (((cfg0.win 4).blk t).view.emb (ix4 (0 : Fin 1) (y 1) j (y 3))))
    = arrG m c (((cfg0.win 6).blk t).view.emb y)
  unfold arrG attnInner
  simp only [emb0 t y (y 2), emb1 t y, fun k => emb2 t y k (y 3), emb3 t y, fun j => emb4 t y j (y 3), emb5 t y (y 2),
    emb6_row t y, emb6_col t y]
  rfl

/-- An index of the array is in point t's block iff each coordinate is in the block's range on its axis. -/
theorem mem_blk (t : Fin cfg0.N) (i : S8x16x16x256.Idx) :
    i ∈ ((cfg0.win 6).blk t).view.set ↔ ∀ a : Fin 4, win0_6.index t a * S1x2x16x256.size a ≤ (i a).val
      ∧ (i a).val < win0_6.index t a * S1x2x16x256.size a + S1x2x16x256.size a := by
  show i ∈ ((View.whole main_v1).slice (win0_6.rect t)).set ↔ _
  rw [View.set_slice_whole, Rect.mem_set_unit]
  exact Iff.rfl

/-- The blocks tile the array: index (b, h, r, d) lies in the block of the point for batch b and head pair h / 2. -/
theorem cover (i : S8x16x16x256.Idx) : ∃ t : Fin cfg0.N, (cfg0.win 6).flush t = true ∧ i ∈ ((cfg0.win 6).blk t).view.set := by
  have i0 : (i 0).val < 8 := (i 0).isLt
  have i1 : (i 1).val < 16 := (i 1).isLt
  have i2 : (i 2).val < 16 := (i 2).isLt
  have i3 : (i 3).val < 256 := (i 3).isLt
  obtain ⟨t, ht0, ht1⟩ := idx_onto ⟨(i 0).val, i0⟩ ⟨(i 1).val / 2, by omega⟩
  obtain ⟨g2, g3⟩ := idx6 t
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1
              simp only at ht0; omega
  | ⟨1, _⟩ => show win0_6.index t (1 : Fin 4) * 2 ≤ (i 1).val ∧ (i 1).val < win0_6.index t (1 : Fin 4) * 2 + 2
              simp only at ht1; omega
  | ⟨2, _⟩ => show win0_6.index t (2 : Fin 4) * 16 ≤ (i 2).val ∧ (i 2).val < win0_6.index t (2 : Fin 4) * 16 + 16; omega
  | ⟨3, _⟩ => show win0_6.index t (3 : Fin 4) * 256 ≤ (i 3).val ∧ (i 3).val < win0_6.index t (3 : Fin 4) * 256 + 256; omega

/-- So the result array ends as the attention array of the arrays the region finds. -/
theorem final (c : Dev nD) : (dats m 0 c).arrAt 6 cfg0.N = arrG m c :=
  (dats m 0 c).arrAt_eq_of_cover 6 (arrG m c) (fun t _ => flushed_eq m c t) cover

/-! ## The mask's way into the kernel -/

/-- The region finds the mask widened: the one host operation before the region zero-extends each bit to 32 bits. -/
theorem mask_entry (c : Dev nD) :
    (V m c main_v0 : S8x1x16x4096.Idx → BitVec 32) = extui 32 (m ((c : Thread nD τ).loc main_arg5)) natLt_1_32 := by
  dsimp only [Gen.V, Gen.hostOps0]; after_results

/-- A bit widened to 32 bits is not zero exactly when it is set. -/
theorem bit_round_trip (x : BitVec 1) : IntOp.cmpi .ne (x.setWidth 32) 0#32 = x := by
  revert x; decide

/-- In terms of the arguments as launched. -/
theorem arrG_eq (c : Dev nD) :
    arrG m c = attnInner (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  unfold arrG
  rw [V_main_arg0, V_main_arg1, V_main_arg2, V_main_arg3, V_main_arg4, mask_entry]
  congr 1
  funext i
  exact bit_round_trip _

/-- THE KERNEL'S RUN: every weakly fair execution ends with the result array at the attention array (the kernel's
    arrangement) of the arguments, and the arguments unchanged. -/
theorem run : θ_run defs (onTc (τ := τ) (main (F := Ideal))) ⟨m, fun _ => 0, ρ⟩ fun r => ∀ c : Dev nD,
      r.2.mem ((c : Thread nD τ).loc main_v1) = attnInner (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (arrG_eq m c)), (h c).2⟩)
    (Cert.KernelIdeal.Value.run_blocks m ρ)

end Run

end Cert.KernelIdeal.AttnValue

end
-- ==== Proof.RefCore.lean ====
/-
  The reference computes the attention array in the "outer" arrangement: at every index its result is `Cert.Attn.coreOuter`
  of the rows and columns of its arguments that the index names.

  The reference is read one stage at a time at an index (b, h, r, ·): batch b, head h, query row r. The masked prior
  scores of that row are `priorOuter` of the row's data and the active scores are `activeOuter`; the two row maxima
  are folds of `max` from `-∞` over the last axis, their maximum is `rowMax`; the exponentials of the shifted scores
  are summed (from the initial value zero) into `rowDen`; every exponential is divided by it, and the two weighted sums
  against the value columns add up to `rowOut`.
-/
import proofs.«424415_j7069516169836_3_alg».proof.Proof.Gen.ReferenceIdeal.Read
import proofs.«424415_j7069516169836_3_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Attn

section Stages

variable (x0 : (⟨S8x16x16x256, .f32⟩ : BufTy).Contents (Elt Ideal)) (x1 x2 : (⟨S8x16x4096x256, .f32⟩ : BufTy).Contents (Elt Ideal))
  (x3 x4 : (⟨S8x16x16x256, .f32⟩ : BufTy).Contents (Elt Ideal)) (x5 : (⟨S8x1x16x4096, .i1⟩ : BufTy).Contents (Elt Ideal))

/-- The masked prior scores of query row r of head (b, h). -/
abbrev sP (b : Fin 8) (h r : Fin 16) : Fin 4096 → EReal :=
  priorOuter (fun e => x0 (ix4 b h r e)) (fun k e => x1 (ix4 b h k e)) (fun k => x5 (ix4 b 0 r k))

/-- The active scores of query row r of head (b, h). -/
abbrev sA (b : Fin 8) (h r : Fin 16) : Fin 16 → EReal :=
  activeOuter (fun e => x0 (ix4 b h r e)) (fun j e => x3 (ix4 b h j e))

/-- The scaled prior score at (b, h, r, k): the dot product of query row r with prior key k, times the scale. -/
theorem v2_at (b : Fin 8) (h r : Fin 16) (k : Fin 4096) :
    val_main_v2 (F := Ideal) x0 x1 (ix4 b h r k) = (∑ e, x0 (ix4 b h r e) * x1 (ix4 b h k e)) * scale := by
  rw [val_main_v2_apply, val_main_v0_apply, val_main_v1_apply, val_main_cst_apply, Ideal.mulf_def, Ideal.ofBits_def]
  have el : ∀ e, lidx_main_v0 (ix4 b h r k) e = ix4 b h r e := fun e => funext fun a => Fin.ext (by
    match a with | ⟨0, _⟩ => rfl | ⟨1, _⟩ => rfl | ⟨2, _⟩ => rfl | ⟨3, _⟩ => rfl)
  have er : ∀ e, ridx_main_v0 (ix4 b h r k) e = ix4 b h k e := fun e => funext fun a => Fin.ext (by
    match a with | ⟨0, _⟩ => rfl | ⟨1, _⟩ => rfl | ⟨2, _⟩ => rfl | ⟨3, _⟩ => rfl)
  simp only [el, er]

/-- The masked prior score at (b, h, r, k). -/
theorem v6_at (b : Fin 8) (h r : Fin 16) (k : Fin 4096) :
    val_main_v6 (F := Ideal) x0 x1 x5 (ix4 b h r k) = sP x0 x1 x5 b h r k := by
  rw [val_main_v6_apply, val_main_call0_v0_apply, v2_at, val_main_call0_v1_apply, val_main_cst_1_apply, Ideal.ofBits_def]
  have em : idx_main_call0_v0 (ix4 b h r k) = ix4 b 0 r k := funext fun a => Fin.ext (by
    match a with | ⟨0, _⟩ => rfl | ⟨1, _⟩ => rfl | ⟨2, _⟩ => rfl | ⟨3, _⟩ => rfl)
  rw [em]
  rfl

/-- The active score at (b, h, r, j): the dot product of query row r with active key j, times the scale. -/
theorem v5_at (b : Fin 8) (h r j : Fin 16) :
    val_main_v5 (F := Ideal) x0 x3 (ix4 b h r j) = sA x0 x3 b h r j := by
  rw [val_main_v5_apply, val_main_v3_apply, val_main_v4_apply, val_main_cst_0_apply, Ideal.mulf_def, Ideal.ofBits_def]
  have el : ∀ e, lidx_main_v3 (ix4 b h r j) e = ix4 b h r e := fun e => funext fun a => Fin.ext (by
    match a with | ⟨0, _⟩ => rfl | ⟨1, _⟩ => rfl | ⟨2, _⟩ => rfl | ⟨3, _⟩ => rfl)
  have er : ∀ e, ridx_main_v3 (ix4 b h r j) e = ix4 b h j e := fun e => funext fun a => Fin.ext (by
    match a with | ⟨0, _⟩ => rfl | ⟨1, _⟩ => rfl | ⟨2, _⟩ => rfl | ⟨3, _⟩ => rfl)
  simp only [el, er]
  rfl

/-- The source index over (b, h, r) with coordinate k put back on the last axis, for the prior scores. -/
theorem lift_prior (hR : S8x16x16x4096.Reduces [3] S8x16x16) (b : Fin 8) (h r : Fin 16) (k : Fin 4096) :
    hR.lift (ix3 b h r) k = ix4 b h r k := funext fun c => Fin.ext (by
  match c with | ⟨0, _⟩ => rfl | ⟨1, _⟩ => rfl | ⟨2, _⟩ => rfl | ⟨3, _⟩ => rfl)

/-- The same for the active scores. -/
theorem lift_active (hR : S8x16x16x16.Reduces [3] S8x16x16) (b : Fin 8) (h r j : Fin 16) :
    hR.lift (ix3 b h r) j = ix4 b h r j := funext fun c => Fin.ext (by
  match c with | ⟨0, _⟩ => rfl | ⟨1, _⟩ => rfl | ⟨2, _⟩ => rfl | ⟨3, _⟩ => rfl)

/-- The maximum of the masked prior scores of row (b, h, r), folded from `-∞`. -/
theorem v7_at (b : Fin 8) (h r : Fin 16) :
    val_main_v7 (F := Ideal) x0 x1 x5 (ix3 b h r) = Finset.univ.fold max lo (sP x0 x1 x5 b h r) := by
  have hR : S8x16x16x4096.Reduces [3] S8x16x16 := by decide
  unfold val_main_v7
  rw [Host.reduce_eq_fold_single FloatOps.maximumf _ _ reducesTo_S8x16x16x4096_S8x16x16_d3 hR h_S_]
  have hf : (val_main_v6 (F := Ideal) x0 x1 x5 ∘ hR.lift (ix3 b h r)) = sP x0 x1 x5 b h r := funext fun (k : Fin 4096) =>
    (congrArg (val_main_v6 (F := Ideal) x0 x1 x5) (lift_prior hR b h r k)).trans (v6_at x0 x1 x5 b h r k)
  rw [hf]
  rfl

/-- The maximum of the active scores of row (b, h, r), folded from `-∞`. -/
theorem v9_at (b : Fin 8) (h r : Fin 16) :
    val_main_v9 (F := Ideal) x0 x3 (ix3 b h r) = Finset.univ.fold max lo (sA x0 x3 b h r) := by
  have hR : S8x16x16x16.Reduces [3] S8x16x16 := by decide
  unfold val_main_v9
  rw [Host.reduce_eq_fold_single FloatOps.maximumf _ _ reducesTo_S8x16x16x16_S8x16x16_d3 hR h_S_]
  have hf : (val_main_v5 (F := Ideal) x0 x3 ∘ hR.lift (ix3 b h r)) = sA x0 x3 b h r := funext fun (j : Fin 16) =>
    (congrArg (val_main_v5 (F := Ideal) x0 x3) (lift_active hR b h r j)).trans (v5_at x0 x3 b h r j)
  rw [hf]
  rfl

/-- The joint maximum of row (b, h, r). -/
theorem v11_at (b : Fin 8) (h r : Fin 16) :
    val_main_v11 (F := Ideal) x0 x1 x3 x5 (ix4 b h r (0 : Fin 1)) = rowMax lo (sP x0 x1 x5 b h r) (sA x0 x3 b h r) := by
  rw [val_main_v11_apply, val_main_v8_apply, val_main_v10_apply, Ideal.maximumf_def]
  have e8 : idx_main_v8 (ix4 b h r (0 : Fin 1)) = ix3 b h r := funext fun a => Fin.ext (by
    match a with | ⟨0, _⟩ => rfl | ⟨1, _⟩ => rfl | ⟨2, _⟩ => rfl)
  have e10 : idx_main_v10 (ix4 b h r (0 : Fin 1)) = ix3 b h r := funext fun a => Fin.ext (by
    match a with | ⟨0, _⟩ => rfl | ⟨1, _⟩ => rfl | ⟨2, _⟩ => rfl)
  rw [e8, e10, v7_at, v9_at]
  rfl

/-- The exponential of the shifted prior score at (b, h, r, k). -/
theorem v14_at (b : Fin 8) (h r : Fin 16) (k : Fin 4096) :
    val_main_v14 (F := Ideal) x0 x1 x3 x5 (ix4 b h r k)
      = Ideal.exp (sP x0 x1 x5 b h r k - rowMax lo (sP x0 x1 x5 b h r) (sA x0 x3 b h r)) := by
  rw [val_main_v14_apply, val_main_v13_apply, val_main_v12_apply, Ideal.hostUnary_exp_def, Ideal.subf_def, v6_at]
  have e12 : idx_main_v12 (ix4 b h r k) = ix4 b h r (0 : Fin 1) := funext fun a => Fin.ext (by
    match a with | ⟨0, _⟩ => rfl | ⟨1, _⟩ => rfl | ⟨2, _⟩ => rfl | ⟨3, _⟩ => rfl)
  rw [e12, v11_at]

/-- The exponential of the shifted active score at (b, h, r, j). -/
theorem v17_at (b : Fin 8) (h r j : Fin 16) :
    val_main_v17 (F := Ideal) x0 x1 x3 x5 (ix4 b h r j)
      = Ideal.exp (sA x0 x3 b h r j - rowMax lo (sP x0 x1 x5 b h r) (sA x0 x3 b h r)) := by
  rw [val_main_v17_apply, val_main_v16_apply, val_main_v15_apply, Ideal.hostUnary_exp_def, Ideal.subf_def, v5_at]
  have e15 : idx_main_v15 (ix4 b h r j) = ix4 b h r (0 : Fin 1) := funext fun a => Fin.ext (by
    match a with | ⟨0, _⟩ => rfl | ⟨1, _⟩ => rfl | ⟨2, _⟩ => rfl | ⟨3, _⟩ => rfl)
  rw [e15, v11_at]

/-- The sum of the prior exponentials of row (b, h, r): the initial value is zero. -/
theorem v18_at (b : Fin 8) (h r : Fin 16) :
    val_main_v18 (F := Ideal) x0 x1 x3 x5 (ix3 b h r)
      = ∑ k, Ideal.exp (sP x0 x1 x5 b h r k - rowMax lo (sP x0 x1 x5 b h r) (sA x0 x3 b h r)) := by
  rw [val_main_v18_apply, val_main_cst_4_apply, Ideal.ofBits_def, Ideal.ofBits_zero_f32, zero_add]
  refine Finset.sum_congr rfl fun k _ => ?_
  have e : idx_main_v18 (ix3 b h r) k = ix4 b h r k := funext fun a => Fin.ext (by
    match a with | ⟨0, _⟩ => rfl | ⟨1, _⟩ => rfl | ⟨2, _⟩ => rfl | ⟨3, _⟩ => rfl)
  rw [e, v14_at]

/-- The sum of the active exponentials of row (b, h, r). -/
theorem v20_at (b : Fin 8) (h r : Fin 16) :
    val_main_v20 (F := Ideal) x0 x1 x3 x5 (ix3 b h r)
      = ∑ j, Ideal.exp (sA x0 x3 b h r j - rowMax lo (sP x0 x1 x5 b h r) (sA x0 x3 b h r)) := by
  rw [val_main_v20_apply, val_main_cst_5_apply, Ideal.ofBits_def, Ideal.ofBits_zero_f32, zero_add]
  refine Finset.sum_congr rfl fun j _ => ?_
  have e : idx_main_v20 (ix3 b h r) j = ix4 b h r j := funext fun a => Fin.ext (by
    match a with | ⟨0, _⟩ => rfl | ⟨1, _⟩ => rfl | ⟨2, _⟩ => rfl | ⟨3, _⟩ => rfl)
  rw [e, v17_at]

/-- The normalizer of row (b, h, r). -/
theorem v22_at (b : Fin 8) (h r : Fin 16) :
    val_main_v22 (F := Ideal) x0 x1 x3 x5 (ix4 b h r (0 : Fin 1)) = rowDen lo (sP x0 x1 x5 b h r) (sA x0 x3 b h r) := by
  rw [val_main_v22_apply, val_main_v19_apply, val_main_v21_apply, Ideal.addf_def]
  have e19 : idx_main_v19 (ix4 b h r (0 : Fin 1)) = ix3 b h r := funext fun a => Fin.ext (by
    match a with | ⟨0, _⟩ => rfl | ⟨1, _⟩ => rfl | ⟨2, _⟩ => rfl)
  have e21 : idx_main_v21 (ix4 b h r (0 : Fin 1)) = ix3 b h r := funext fun a => Fin.ext (by
    match a with | ⟨0, _⟩ => rfl | ⟨1, _⟩ => rfl | ⟨2, _⟩ => rfl)
  rw [e19, e21, v18_at, v20_at]
  rfl

/-- The weight of prior key k in row (b, h, r): its exponential divided by the normalizer. -/
theorem v24_at (b : Fin 8) (h r : Fin 16) (k : Fin 4096) :
    val_main_v24 (F := Ideal) x0 x1 x3 x5 (ix4 b h r k)
      = Ideal.div (Ideal.exp (sP x0 x1 x5 b h r k - rowMax lo (sP x0 x1 x5 b h r) (sA x0 x3 b h r)))
          (rowDen lo (sP x0 x1 x5 b h r) (sA x0 x3 b h r)) := by
  rw [val_main_v24_apply, val_main_v23_apply, Ideal.hostDivf_def, v14_at]
  have e23 : idx_main_v23 (ix4 b h r k) = ix4 b h r (0 : Fin 1) := funext fun a => Fin.ext (by
    match a with | ⟨0, _⟩ => rfl | ⟨1, _⟩ => rfl | ⟨2, _⟩ => rfl | ⟨3, _⟩ => rfl)
  rw [e23, v22_at]

/-- The weight of active key j in row (b, h, r). -/
theorem v26_at (b : Fin 8) (h r j : Fin 16) :
    val_main_v26 (F := Ideal) x0 x1 x3 x5 (ix4 b h r j)
      = Ideal.div (Ideal.exp (sA x0 x3 b h r j - rowMax lo (sP x0 x1 x5 b h r) (sA x0 x3 b h r)))
          (rowDen lo (sP x0 x1 x5 b h r) (sA x0 x3 b h r)) := by
  rw [val_main_v26_apply, val_main_v25_apply, Ideal.hostDivf_def, v17_at]
  have e25 : idx_main_v25 (ix4 b h r j) = ix4 b h r (0 : Fin 1) := funext fun a => Fin.ext (by
    match a with | ⟨0, _⟩ => rfl | ⟨1, _⟩ => rfl | ⟨2, _⟩ => rfl | ⟨3, _⟩ => rfl)
  rw [e25, v22_at]

/-- The result at (b, h, r, d): the weighted sum of the prior value column d plus that of the active value column d. -/
theorem v29_at (b : Fin 8) (h r : Fin 16) (d : Fin 256) :
    val_main_v29 (F := Ideal) x0 x1 x2 x3 x4 x5 (ix4 b h r d)
      = rowOut lo (sP x0 x1 x5 b h r) (sA x0 x3 b h r) (fun k => x2 (ix4 b h k d)) (fun j => x4 (ix4 b h j d)) := by
  rw [val_main_v29_apply, val_main_v27_apply, val_main_v28_apply, Ideal.addf_def]
  have el27 : ∀ k, lidx_main_v27 (ix4 b h r d) k = ix4 b h r k := fun k => funext fun a => Fin.ext (by
    match a with | ⟨0, _⟩ => rfl | ⟨1, _⟩ => rfl | ⟨2, _⟩ => rfl | ⟨3, _⟩ => rfl)
  have er27 : ∀ k, ridx_main_v27 (ix4 b h r d) k = ix4 b h k d := fun k => funext fun a => Fin.ext (by
    match a with | ⟨0, _⟩ => rfl | ⟨1, _⟩ => rfl | ⟨2, _⟩ => rfl | ⟨3, _⟩ => rfl)
  have el28 : ∀ j, lidx_main_v28 (ix4 b h r d) j = ix4 b h r j := fun j => funext fun a => Fin.ext (by
    match a with | ⟨0, _⟩ => rfl | ⟨1, _⟩ => rfl | ⟨2, _⟩ => rfl | ⟨3, _⟩ => rfl)
  have er28 : ∀ j, ridx_main_v28 (ix4 b h r d) j = ix4 b h j d := fun j => funext fun a => Fin.ext (by
    match a with | ⟨0, _⟩ => rfl | ⟨1, _⟩ => rfl | ⟨2, _⟩ => rfl | ⟨3, _⟩ => rfl)
  simp only [el27, er27, el28, er28, v24_at, v26_at]
  rfl

end Stages

/-- The reference's result, as a function of its six arguments, is the attention array in the outer arrangement. -/
theorem result_eq (x0 : (⟨S8x16x16x256, .f32⟩ : BufTy).Contents (Elt Ideal)) (x1 x2 : (⟨S8x16x4096x256, .f32⟩ : BufTy).Contents (Elt Ideal))
    (x3 x4 : (⟨S8x16x16x256, .f32⟩ : BufTy).Contents (Elt Ideal)) (x5 : (⟨S8x1x16x4096, .i1⟩ : BufTy).Contents (Elt Ideal)) :
    val_main_v29 (F := Ideal) x0 x1 x2 x3 x4 x5 = attnOuter x0 x1 x2 x3 x4 x5 := by
  funext i
  obtain ⟨b, h, r, d, rfl⟩ : ∃ (b : Fin 8) (h r : Fin 16) (d : Fin 256), i = ix4 b h r d :=
    ⟨i 0, i 1, i 2, i 3, eq_ix4 i⟩
  exact v29_at x0 x1 x2 x3 x4 x5 b h r d

end Cert.ReferenceIdeal.RefValue

end
-- ==== Proof.Finite.lean ====
/-
  What the precondition gives: every entry of the queries, the prior keys and the active keys is a real number.
-/
import proofs.«424415_j7069516169836_3_alg».proof.Pre_finite_inputs
import proofs.«424415_j7069516169836_3_alg».proof.Proof.Gen.Pre_finite_inputs
import Idealize.ShloMosaic.PureOps.Ideal
import Idealize.ShloMosaic.Lib.ReduceAll

noncomputable section

namespace Cert.Attn.Finite

open Idealize.ShloMosaic Cert.Pre_finite_inputs

/-- The f32 pattern with all exponent bits set and an empty significand is plus infinity. -/
theorem ofBits_inf : Ideal.ofBits .f32 0x7F800000#32 = (⊤ : EReal) := by
  simp [Ideal.ofBits, Ideal.ieee]

/-- An extended real whose absolute value is strictly below plus infinity is a real: at either infinity the
    absolute value `max x (-x)` is plus infinity itself. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The scalar shape has one index. -/
local instance : Subsingleton S_.Idx := ⟨fun a b => funext fun d => d.elim0⟩

/-- One `all(|x| < inf)` read back, at any shape: if the conjunction over all entries of the comparison of `|x|` with
    the broadcast plus-infinity constant is one, every entry of `x` is a real. -/
theorem reals_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := fun i =>
  real_of_abs_lt (x i) (Host.reduce_andi_all _ _ hr hu j e i)

/-- If the printed predicate `finite_inputs` is all ones on six arrays at the ideal instance, then every entry of the
    first (queries), second (prior keys) and fourth (active keys) is a real number. -/
theorem reals_of_fn [Cert.Pre_finite_inputs.Facts] (a0 : FVec Ideal S8x16x16x256 .f32) (a1 a2 : FVec Ideal S8x16x4096x256 .f32)
    (a3 a4 : FVec Ideal S8x16x16x256 .f32) (a5 : IVec S8x1x16x4096 1)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a3 i = (r : EReal)) := by
  have h0 := congrFun h (fun d => d.elim0)
  dsimp only [fn, fn_part1, andi] at h0
  obtain ⟨h1234, -⟩ := IntOp.andi_eq_one.1 h0
  obtain ⟨h123, e3⟩ := IntOp.andi_eq_one.1 h1234
  obtain ⟨h12, -⟩ := IntOp.andi_eq_one.1 h123
  obtain ⟨e0, e1⟩ := IntOp.andi_eq_one.1 h12
  exact ⟨reals_of_all _ _ _ a0 _ e0, reals_of_all _ _ _ a1 _ e1, reals_of_all _ _ _ a3 _ e3⟩

end Cert.Attn.Finite

end
-- ==== Proof.lean ====
/-
  Joint masked softmax attention over a prior and an active set of keys and values: a two-heads-per-step kernel against
  its whole-array reference, equal over the extended reals for finite inputs.

  For each batch b, head h and query row r, with s = 1/16 (the scale 256^(-1/2)):
    prior score k   = s · ⟨Q[b,h,r,:], K_prior[b,h,k,:]⟩  where mask[b,0,r,k] is set, the most negative finite f32 where not
    active score j  = s · ⟨Q[b,h,r,:], K_active[b,h,j,:]⟩
    M   = the maximum of all those scores,   den = Σ_k exp (prior k - M) + Σ_j exp (active j - M)
    out[b,h,r,d]    = Σ_k (exp (prior k - M) / den) · V_prior[b,h,k,d] + Σ_j (exp (active j - M) / den) · V_active[b,h,j,d]

  The reference scales the finished dot products and divides each exponential by den (`Cert.Attn.attnOuter`,
  Proof/RefCore.lean reads its host operations at an index). The kernel scales the query rows first, multiplies
  each exponential by 1 / den, and works block by block, two heads per grid point, the mask block shared by a batch's
  heads and handed in widened from one bit to 32 (`Cert.Attn.attnInner`: Proof/HeadBody.lean is one head's body at an
  index, Proof/KernelValue.lean the blocks, their index maps and the tiling of the array). The two arrangements agree
  when the queries and keys are real numbers, which the precondition gives (Proof/Finite.lean): the scale moves across
  a finite sum of reals, the scores are then real, den is a positive real, and multiplying by its reciprocal is
  dividing by it (Proof/RowLaw.lean, Proof/Spec.lean). The values may be any extended reals: both programs use them
  in the same products. The kernel's idealization rewrote no operation, so `preserves` has nothing to state.
-/
import proofs.«424415_j7069516169836_3_alg».proof.Defs
import proofs.«424415_j7069516169836_3_alg».proof.Proof.Gen.Kernel
import proofs.«424415_j7069516169836_3_alg».proof.Proof.Gen.Kernel.Skeleton
import proofs.«424415_j7069516169836_3_alg».proof.Proof.Gen.Kernel.Launch
import proofs.«424415_j7069516169836_3_alg».proof.Proof.Gen.Kernel.Points
import proofs.«424415_j7069516169836_3_alg».proof.Proof.Gen.Kernel.Frame
import proofs.«424415_j7069516169836_3_alg».proof.Proof.Gen.KernelIdeal
import proofs.«424415_j7069516169836_3_alg».proof.Proof.Gen.KernelIdeal.Skeleton
import proofs.«424415_j7069516169836_3_alg».proof.Proof.Gen.KernelIdeal.Launch
import proofs.«424415_j7069516169836_3_alg».proof.Proof.Gen.KernelIdeal.Points
import proofs.«424415_j7069516169836_3_alg».proof.Proof.Gen.KernelIdeal.Frame
import proofs.«424415_j7069516169836_3_alg».proof.Proof.Gen.ReferenceIdeal
import proofs.«424415_j7069516169836_3_alg».proof.Proof.Gen.Pre_finite_inputs
import proofs.«424415_j7069516169836_3_alg».proof.Proof.Gen.KernelIdeal.Value
import proofs.«424415_j7069516169836_3_alg».proof.Proof.Gen.ReferenceIdeal.Run
import proofs.«424415_j7069516169836_3_alg».proof.Proof.Gen.ReferenceIdeal.Read
import proofs.«424415_j7069516169836_3_alg».proof.Proof.KernelValue
import proofs.«424415_j7069516169836_3_alg».proof.Proof.RefCore
import proofs.«424415_j7069516169836_3_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a sequence of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the attention array in the reference's arrangement: the reference by reading its
    operations, the kernel because its own arrangement equals that one when queries and keys are real. -/
theorem algebraic : Cert.algebraic_KernelIdeal_ReferenceIdeal := by
  intro m ρ m' ρ' hpre hagree
  refine ⟨fun c => Cert.Attn.attnOuter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.AttnValue.run m ρ)
    obtain ⟨hQ, hKp, hKa⟩ := Cert.Attn.Finite.reals_of_fn _ _ _ _ _ _ (hpre c)
    exact Cert.Attn.attnInner_eq_attnOuter _ _ _ _ _ _ hQ hKp hKa
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
